-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192x1 : Shape := ⟨3, ![2048, 8192, 1]⟩
abbrev S_ : Shape := ⟨0, ![]⟩

class Facts : Prop where
  bcast_S_S2048x8192x1 : S_.BroadcastsInDim S2048x8192x1 (![] : Fin 0 → Fin S2048x8192x1.rank)
  reducesTo_S2048x8192x1_S_d0_1_2 : S2048x8192x1.ReducesTo [0, 1, 2] S_
  h_S_ : 0 < S_.numel

variable [Facts]

def fn {F : FTy → Type} [FloatOps F] (main_arg0 : FVec F S2048x8192x1 .f32) (main_arg1 : FVec F S2048x8192x1 .f32) (main_arg2 : IVec S2048x8192x1 32) : IVec S_ 1 :=
  let main_v0 : FVec F S2048x8192x1 .f32 := Host.absf main_arg0
  let main_cst : FVec F S_ .f32 := constant S_ .f32 0x7F800000#32
  let main_v1 : FVec F S2048x8192x1 .f32 := broadcastInDim S2048x8192x1 ![] bcast_S_S2048x8192x1 main_cst
  let main_v2 : IVec S2048x8192x1 1 := cmpf .olt main_v0 main_v1
  let main_c : IVec S_ 1 := constantI S_ 1 1#1
  let main_v3 : IVec S_ 1 := (fun x v => Host.reduce IntOp.andi x v reducesTo_S2048x8192x1_S_d0_1_2 h_S_) main_v2 main_c
  let main_v4 : FVec F S2048x8192x1 .f32 := Host.absf main_arg1
  let main_cst_0 : FVec F S_ .f32 := constant S_ .f32 0x7F800000#32
  let main_v5 : FVec F S2048x8192x1 .f32 := broadcastInDim S2048x8192x1 ![] bcast_S_S2048x8192x1 main_cst_0
  let main_v6 : IVec S2048x8192x1 1 := cmpf .olt main_v4 main_v5
  let main_c_1 : IVec S_ 1 := constantI S_ 1 1#1
  let main_v7 : IVec S_ 1 := (fun x v => Host.reduce IntOp.andi x v reducesTo_S2048x8192x1_S_d0_1_2 h_S_) main_v6 main_c_1
  let main_v8 : IVec S_ 1 := andi main_v3 main_v7
  main_v8
-- ==== Kernel.lean ====
abbrev S2048x8192x1 : Shape := ⟨3, ![2048, 8192, 1]⟩
abbrev S2048x8192 : Shape := ⟨2, ![2048, 8192]⟩
abbrev S2048x1 : Shape := ⟨2, ![2048, 1]⟩
abbrev S128x8192 : Shape := ⟨2, ![128, 8192]⟩
abbrev S128x1 : Shape := ⟨2, ![128, 1]⟩
abbrev S128 : Shape := ⟨1, ![128]⟩
abbrev S2048 : Shape := ⟨1, ![2048]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S2048x8192x1, .f32⟩
  | .hbm, ⟨1, _⟩ => ⟨S2048x8192x1, .f32⟩
  | .hbm, ⟨2, _⟩ => ⟨S2048x8192x1, .i32⟩
  | .hbm, ⟨3, _⟩ => ⟨S2048x8192, .f32⟩
  | .hbm, ⟨4, _⟩ => ⟨S2048x8192, .f32⟩
  | .hbm, ⟨5, _⟩ => ⟨S2048x8192, .i32⟩
  | .hbm, ⟨6, _⟩ => ⟨S2048x1, .f32⟩
  | .hbm, ⟨7, _⟩ => ⟨S2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .i32⟩
  | .local _ .vmem, ⟨5, _⟩ => ⟨S128x8192, .i32⟩
  | .local _ .vmem, ⟨6, _⟩ => ⟨S128x1, .f32⟩
  | .local _ .vmem, ⟨7, _⟩ => ⟨S128x1, .f32⟩
  | _, _ => ⟨S2048x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048x8192x1_S2048x8192 : S2048x8192x1.ShapeCasts S2048x8192
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  broadcasts_S128x1_S128x8192 : S128x1.Broadcasts S128x8192
  inb_S128x1_S128x1_0_0 : ∀ a, (![0, 0] : Fin 2 → Nat) a + S128x1.size a ≤ S128x1.size a
  h_S128x1 : 0 < S128x1.numel
  shapeCasts_S2048x1_S2048 : S2048x1.ShapeCasts S2048
  reducesTo_S2048_S_d0 : S2048.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S2048x8192.size a
  hwx0_0 : ∀ i : grid0.Coords, EltTy.bits .f32 = 32 ∨ (Rect.block (s := S2048x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S2048x8192.size a
  hwx0_1 : ∀ i : grid0.Coords, EltTy.bits .f32 = 32 ∨ (Rect.block (s := S2048x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S2048x8192.size a
  hwx0_2 : ∀ i : grid0.Coords, EltTy.bits .i32 = 32 ∨ (Rect.block (s := S2048x8192) S128x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S2048x1.size a
  hwx0_3 : ∀ i : grid0.Coords, EltTy.bits .f32 = 32 ∨ (Rect.block (s := S2048x1) S128x1.size (cc0_transform_3 i) (hinb0_3 i)).WholeWords (EltTy.packing .f32)

variable [Facts₀]

abbrev win0_0 : Pipeline.Window sig grid0 :=
  Pipeline.Window.ofSpec (Memref.whole main_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x8192x1 : Shape := ⟨3, ![2048, 8192, 1]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩

abbrev nBuf : Space → Nat
  | .hbm => 123
  | .vmem => 0
  | .smem => 0
  | _ => 0

abbrev bufTy : (tb : Table) → Fin (tcTables nBuf tb) → BufTy
  | .hbm, ⟨0, _⟩ => ⟨S2048x8192x1, .f32⟩
  | .hbm, ⟨1, _⟩ => ⟨S2048x8192x1, .f32⟩
  | .hbm, ⟨2, _⟩ => ⟨S2048x8192x1, .i32⟩
  | .hbm, ⟨3, _⟩ => ⟨S2048x8192, .f32⟩
  | .hbm, ⟨4, _⟩ => ⟨S2048x8192, .f32⟩
  | .hbm, ⟨5, _⟩ => ⟨S2048x8192, .i32⟩
  | .hbm, ⟨6, _⟩ => ⟨S_, .i32⟩
  | .hbm, ⟨7, _⟩ => ⟨S2048x8192, .i32⟩
  | .hbm, ⟨8, _⟩ => ⟨S2048x8192, .i1⟩
  | .hbm, ⟨9, _⟩ => ⟨S2048x8192, .i1⟩
  | .hbm, ⟨10, _⟩ => ⟨S2048x8192, .i1⟩
  | .hbm, ⟨11, _⟩ => ⟨S2048x8192, .i1⟩
  | .hbm, ⟨12, _⟩ => ⟨S2048x8192, .i1⟩
  | .hbm, ⟨13, _⟩ => ⟨S2048x8192, .i1⟩
  | .hbm, ⟨14, _⟩ => ⟨S2048x8192, .i1⟩
  | .hbm, ⟨15, _⟩ => ⟨S2048x8192, .i1⟩
  | .hbm, ⟨16, _⟩ => ⟨S2048x8192, .i32⟩
  | .hbm, ⟨17, _⟩ => ⟨S_, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048x8192, .f32⟩
  | .hbm, ⟨23, _⟩ => ⟨S2048x8192, .f32⟩
  | .hbm, ⟨24, _⟩ => ⟨S_, .f32⟩
  | .hbm, ⟨25, _⟩ => ⟨S_, .f32⟩
  | .hbm, ⟨26, _⟩ => ⟨S2048x8192, .f32⟩
  | .hbm, ⟨27, _⟩ => ⟨S2048x8192, .f32⟩
  | .hbm, ⟨28, _⟩ => ⟨S_, .f32⟩
  | .hbm, ⟨29, _⟩ => ⟨S2048, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S_, .f32⟩
  | .hbm, ⟨49, _⟩ => ⟨S2048x8192, .f32⟩
  | .hbm, ⟨50, _⟩ => ⟨S2048x8192, .f32⟩
  | .hbm, ⟨51, _⟩ => ⟨S_, .f32⟩
  | .hbm, ⟨52, _⟩ => ⟨S2048, .f32⟩
  | .hbm, ⟨53, _⟩ => ⟨S_, .f32⟩
  | .hbm, ⟨54, _⟩ => ⟨S_, .f32⟩
  | .hbm, ⟨55, _⟩ => ⟨S2048x8192, .f32⟩
  | .hbm, ⟨56, _⟩ => ⟨S2048x8192, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S_, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S_, .f32⟩
  | .hbm, ⟨69, _⟩ => ⟨S2048, .f32⟩
  | .hbm, ⟨70, _⟩ => ⟨S2048, .i1⟩
  | .hbm, ⟨71, _⟩ => ⟨S2048x1, .i1⟩
  | .hbm, ⟨72, _⟩ => ⟨S2048x1, .f32⟩
  | .hbm, ⟨73, _⟩ => ⟨S2048x8192, .f32⟩
  | .hbm, ⟨74, _⟩ => ⟨S2048x8192, .i1⟩
  | .hbm, ⟨75, _⟩ => ⟨S_, .i1⟩
  | .hbm, ⟨76, _⟩ => ⟨S2048x8192, .i1⟩
  | .hbm, ⟨77, _⟩ => ⟨S2048x8192, .i1⟩
  | .hbm, ⟨78, _⟩ => ⟨S2048x8192, .i1⟩
  | .hbm, ⟨79, _⟩ => ⟨S2048x8192, .i1⟩
  | .hbm, ⟨80, _⟩ => ⟨S2048x8192, .i32⟩
  | .hbm, ⟨81, _⟩ => ⟨S_, .i32⟩
  | .hbm, ⟨82, _⟩ => ⟨S2048, .i32⟩
  | .hbm, ⟨83, _⟩ => ⟨S2048x8192, .f32⟩
  | .hbm, ⟨84, _⟩ => ⟨S2048x8192, .f32⟩
  | .hbm, ⟨85, _⟩ => ⟨S_, .f32⟩
  | .hbm, ⟨86, _⟩ => ⟨S_, .f32⟩
  | .hbm, ⟨87, _⟩ => ⟨S2048x8192, .f32⟩
  | .hbm, ⟨88, _⟩ => ⟨S2048x8192, .f32⟩
  | .hbm, ⟨89, _⟩ => ⟨S_, .f32⟩
  | .hbm, ⟨90, _⟩ => ⟨S2048, .f32⟩
  | .hbm, ⟨91, _⟩ => ⟨S_, .i32⟩
  | .hbm, ⟨92, _⟩ => ⟨S2048, .i32⟩
  | .hbm, ⟨93, _⟩ => ⟨S2048, .i1⟩
  | .hbm, ⟨94, _⟩ => ⟨S_, .i32⟩
  | .hbm, ⟨95, _⟩ => ⟨S2048, .i32⟩
  | .hbm, ⟨96, _⟩ => ⟨S2048, .i32⟩
  | .hbm, ⟨97, _⟩ => ⟨S2048, .f32⟩
  | .hbm, ⟨98, _⟩ => ⟨S2048, .f32⟩
  | .hbm, ⟨99, _⟩ => ⟨S_, .f32⟩
  | .hbm, ⟨100, _⟩ => ⟨S_, .f32⟩
  | .hbm, ⟨101, _⟩ => ⟨S2048, .f32⟩
  | .hbm, ⟨102, _⟩ => ⟨S2048, .f32⟩
  | .hbm, ⟨103, _⟩ => ⟨S2048, .f32⟩
  | .hbm, ⟨104, _⟩ => ⟨S_, .f32⟩
  | .hbm, ⟨105, _⟩ => ⟨S_, .f32⟩
  | .hbm, ⟨106, _⟩ => ⟨S2048, .f32⟩
  | .hbm, ⟨107, _⟩ => ⟨S2048, .f32⟩
  | .hbm, ⟨108, _⟩ => ⟨S_, .f32⟩
  | .hbm, ⟨109, _⟩ => ⟨S2048, .f32⟩
  | .hbm, ⟨110, _⟩ => ⟨S2048, .f32⟩
  | .hbm, ⟨111, _⟩ => ⟨S_, .f32⟩
  | .hbm, ⟨112, _⟩ => ⟨S2048, .f32⟩
  | .hbm, ⟨113, _⟩ => ⟨S2048, .f32⟩
  | .hbm, ⟨114, _⟩ => ⟨S2048, .f32⟩
  | .hbm, ⟨115, _⟩ => ⟨S_, .f32⟩
  | .hbm, ⟨116, _⟩ => ⟨S2048, .f32⟩
  | .hbm, ⟨117, _⟩ => ⟨S2048, .f32⟩
  | .hbm, ⟨118, _⟩ => ⟨S2048, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S2048x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_call2_v0 : Ref sig .tc := ⟨.hbm, 44, rfl⟩
abbrev main_call2_v1 : Ref sig .tc := ⟨.hbm, 45, rfl⟩
abbrev main_v28 : Ref sig .tc := ⟨.hbm, 46, rfl⟩
abbrev main_cst_7 : Ref sig .tc := ⟨.hbm, 47, rfl⟩
abbrev main_call3_v0 : Ref sig .tc := ⟨.hbm, 48, rfl⟩
abbrev main_call3_v1 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_cst_9 : Ref sig .tc := ⟨.hbm, 53, rfl⟩
abbrev main_call4_v0 : Ref sig .tc := ⟨.hbm, 54, rfl⟩
abbrev main_call4_v1 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_call5_v0 : Ref sig .tc := ⟨.hbm, 62, rfl⟩
abbrev main_call5_v1 : Ref sig .tc := ⟨.hbm, 63, rfl⟩
abbrev main_v35 : Ref sig .tc := ⟨.hbm, 64, rfl⟩
abbrev main_cst_12 : Ref sig .tc := ⟨.hbm, 65, rfl⟩
abbrev main_v36 : Ref sig .tc := ⟨.hbm, 66, rfl⟩
abbrev main_v37 : Ref sig .tc := ⟨.hbm, 67, rfl⟩
abbrev main_cst_13 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_14 : Ref sig .tc := ⟨.hbm, 75, rfl⟩
abbrev main_call6_v0 : Ref sig .tc := ⟨.hbm, 76, rfl⟩
abbrev main_call6_v1 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_15 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_16 : Ref sig .tc := ⟨.hbm, 85, rfl⟩
abbrev main_call7_v0 : Ref sig .tc := ⟨.hbm, 86, rfl⟩
abbrev main_call7_v1 : Ref sig .tc := ⟨.hbm, 87, rfl⟩
abbrev main_v50 : Ref sig .tc := ⟨.hbm, 88, rfl⟩
abbrev main_cst_17 : Ref sig .tc := ⟨.hbm, 89, rfl⟩
abbrev main_v51 : Ref sig .tc := ⟨.hbm, 90, rfl⟩
abbrev main_c_18 : Ref sig .tc := ⟨.hbm, 91, rfl⟩
abbrev main_v52 : Ref sig .tc := ⟨.hbm, 92, rfl⟩
abbrev main_v53 : Ref sig .tc := ⟨.hbm, 93, rfl⟩
abbrev main_c_19 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_20 : Ref sig .tc := ⟨.hbm, 99, rfl⟩
abbrev main_call8_v0 : Ref sig .tc := ⟨.hbm, 100, rfl⟩
abbrev main_call8_v1 : Ref sig .tc := ⟨.hbm, 101, rfl⟩
abbrev main_v58 : Ref sig .tc := ⟨.hbm, 102, rfl⟩
abbrev main_v59 : Ref sig .tc := ⟨.hbm, 103, rfl⟩
abbrev main_cst_21 : Ref sig .tc := ⟨.hbm, 104, rfl⟩
abbrev main_call9_v0 : Ref sig .tc := ⟨.hbm, 105, rfl⟩
abbrev main_call9_v1 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_cst_23 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_24 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_25 : Ref sig .tc := ⟨.hbm, 119, rfl⟩
abbrev main_v69 : Ref sig .tc := ⟨.hbm, 120, rfl⟩
abbrev main_cst_26 : Ref sig .tc := ⟨.hbm, 121, rfl⟩
abbrev main_v70 : Ref sig .tc := ⟨.hbm, 122, rfl⟩

abbrev nD : Nat := 1
abbrev τ : Topo := Topo.v7x

variable {F : FTy → Type} [FloatOps F]

class Facts₀ : Prop where
  shapeCasts_S2048x8192x1_S2048x8192 : S2048x8192x1.ShapeCasts S2048x8192
  bcast_S_S2048x8192 : S_.BroadcastsInDim S2048x8192 (![] : Fin 0 → Fin S2048x8192.rank)
  natLt_1_32 : 1 < 32
  reducesTo_S2048x8192_S2048_d1 : S2048x8192.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x8192_0_1 : S2048x1.BroadcastsInDim S2048x8192 (![0, 1] : Fin 2 → Fin S2048x8192.rank)
  reducesTo_S2048_S_d0 : S2048.ReducesTo [0] S_

variable [Facts₀]

class Facts : Prop extends Facts₀ where

variable [Facts]
-- ==== Proof.RowLoss.lean ====
/-
  One row of the flood-masked peak/area loss, as a function of the row's 8192 predictions p, targets t and
  mask words m, written twice at the scalar level of the extended reals.

  rowLossK spells it the way the kernel computes it: the number of valid entries is a SUM of ones and zeros,
  so a real; "the row has a valid entry" is 0 < n; the mean divides by max n 1; the high-value threshold
  is replaced by -∞ when the row's target peak is not positive, and compared against every target.

  rowLossR spells it the way the reference computes it: the number of valid entries is a 32-bit INTEGER sum
  of widened bits; "the row has a valid entry" is the signed test 0 < n; the mean divides by the integer
  max n 1 converted exactly; where the target peak is not positive the high-value test is the constant true.

  rowLossK_eq_rowLossR: the two are one function. An entry is valid exactly when its mask word is not
  zero (an extended real never differs from itself, so both "is not NaN" tests are true); a sum of k
  ones is the real k, the integer sum of k ones (k ≤ 8192) is the word k, whose signed value is k; and every
  extended real is ≥ -∞.
-/
import Idealize.ShloMosaic.PureOps.Ideal
import Idealize.ShloMosaic.PureOps.Ideal.Laws
import Idealize.ShloMosaic.Lib.ValueIdx
import Idealize.ShloMosaic.Lib.WordArith
import Idealize.ShloMosaic.Lib.StableHlo.Predicate

noncomputable section

namespace PeakFlood

open Idealize.ShloMosaic

/-- The float literals of both programs, as the extended reals their patterns denote. -/
abbrev Z : EReal := Ideal.ofBits .f32 0x00000000#32
abbrev ONE : EReal := Ideal.ofBits .f32 0x3F800000#32
abbrev NEG : EReal := Ideal.ofBits .f32 0xF149F2CA#32
abbrev NINF : EReal := Ideal.ofBits .f32 0xFF800000#32
abbrev C08 : EReal := Ideal.ofBits .f32 0x3F4CCCCD#32
abbrev HALF : EReal := Ideal.ofBits .f32 0x3F000000#32
abbrev TWO : EReal := Ideal.ofBits .f32 0x40000000#32

variable (p t : Fin 8192 → EReal) (m : Fin 8192 → BitVec 32)

/-- The squared error of entry s. -/
def sq (s : Fin 8192) : EReal := (p s - t s) * (p s - t s)

/-- A masked sum over the row: f s where the bit is set, zero elsewhere. -/
def msum (v : Fin 8192 → BitVec 1) (f : Fin 8192 → EReal) : EReal := ∑ s, Scalar.select (v s) (f s) Z

/-- A masked maximum over the row, from -∞: f s where the bit is set, the finite stand-in -1e30 elsewhere. -/
def mmax (v : Fin 8192 → BitVec 1) (f : Fin 8192 → EReal) : EReal :=
  (Finset.univ : Finset (Fin 8192)).fold max NINF (fun s => Scalar.select (v s) (f s) NEG)

/-! ## The kernel's spelling -/

/-- Entry s is valid: the mask word is not zero, and neither value differs from itself. -/
def vK (s : Fin 8192) : BitVec 1 :=
  IntOp.andi (IntOp.andi (IntOp.cmpi .ne (m s) 0#32) (IntOp.xori (Ideal.cmp .one (p s) (p s)) 1#1))
    (IntOp.xori (Ideal.cmp .one (t s) (t s)) 1#1)

/-- How many bits are set, as a sum of ones. -/
def cntK (v : Fin 8192 → BitVec 1) : EReal := ∑ s, Scalar.select (v s) ONE Z

/-- The root of a mean with the zero-count guard: sqrt (ss / max n 1) where 0 < n, zero elsewhere. -/
def rmseK (ss n : EReal) : EReal :=
  Scalar.select (Ideal.cmp .ogt n Z)
    (Ideal.sqrt (Scalar.select (Ideal.cmp .ogt n Z) (Ideal.div ss (max n ONE)) ONE)) Z

/-- The high-value entries: valid, and at or above 0.8 of the target peak (above -∞ where that peak is not positive). -/
def hK (s : Fin 8192) : BitVec 1 :=
  IntOp.andi (vK p t m s)
    (Ideal.cmp .oge (t s) (Scalar.select (Ideal.cmp .ole (mmax (vK p t m) t) Z) NINF (mmax (vK p t m) t * C08)))

/-- The absolute difference of the two masked peaks where the row has a valid entry, zero elsewhere. -/
def peakK : EReal :=
  Scalar.select (Ideal.cmp .ogt (cntK (vK p t m)) Z)
    (max (mmax (vK p t m) p - mmax (vK p t m) t) (-(mmax (vK p t m) p - mmax (vK p t m) t))) Z

def rowLossK : EReal :=
  (HALF * rmseK (msum (vK p t m) (sq p t)) (cntK (vK p t m)) + TWO * peakK p t m)
    + ONE * rmseK (msum (hK p t m) (sq p t)) (cntK (hK p t m))

/-! ## The reference's spelling -/

def vR (s : Fin 8192) : BitVec 1 :=
  IntOp.andi (IntOp.andi (IntOp.cmpi .ne (m s) 0#32) (~~~ (Ideal.cmp .une (p s) (p s))))
    (~~~ (Ideal.cmp .une (t s) (t s)))

/-- How many bits are set, as a 32-bit sum of the widened bits. -/
def cntR (v : Fin 8192 → BitVec 1) : BitVec 32 :=
  (Finset.univ : Finset (Fin 8192)).fold IntOp.addi 0#32 (fun s => (v s).setWidth 32)

/-- The reference's masked sum starts from its zero initial value. -/
def msumR (v : Fin 8192 → BitVec 1) (f : Fin 8192 → EReal) : EReal := Z + ∑ s, Scalar.select (v s) (f s) Z

def rmseR (ss : EReal) (k : BitVec 32) : EReal :=
  Scalar.select (IntOp.cmpi .sgt k 0#32)
    (Ideal.sqrt (Scalar.select (IntOp.cmpi .sgt k 0#32) (Ideal.div ss (((IntOp.maxsi k 1#32).toInt : ℝ) : EReal)) ONE)) Z

def hR (s : Fin 8192) : BitVec 1 :=
  IntOp.andi (vR p t m s)
    (Scalar.select (Ideal.cmp .ole (mmax (vR p t m) t) Z) 1#1 (Ideal.cmp .oge (t s) (mmax (vR p t m) t * C08)))

def peakR : EReal :=
  Scalar.select (IntOp.cmpi .sgt (cntR (vR p t m)) 0#32)
    (max (mmax (vR p t m) p - mmax (vR p t m) t) (-(mmax (vR p t m) p - mmax (vR p t m) t))) Z

def rowLossR : EReal :=
  (HALF * rmseR (msumR (vR p t m) (sq p t)) (cntR (vR p t m)) + TWO * peakR p t m)
    + ONE * rmseR (msumR (hR p t m) (sq p t)) (cntR (hR p t m))

/-! ## They are one function -/

open Idealize.ShloMosaic.ValueIdx Idealize.ShloMosaic.StableHlo.Predicate

/-! ### The literals -/

/-- The zero pattern is 0. -/
theorem Z_eq : Z = 0 := Ideal.ofBits_zero_f32

/-- The pattern 0x3F800000 is 1. -/
theorem ONE_eq : ONE = 1 := by
  show Ideal.ofBits .f32 0x3F800000#32 = 1
  simp [Ideal.ofBits, Ideal.ieee, -EReal.coe_mul]; norm_num

/-- The pattern 0xFF800000 is -∞. -/
theorem NINF_eq : NINF = ⊥ := by
  show Ideal.ofBits .f32 0xFF800000#32 = ⊥
  simp [Ideal.ofBits, Ideal.ieee]

/-! ### The valid bit is the plain mask test -/

/-- An extended real does not differ from itself (ordered spelling). -/
theorem cmp_one_self (x : EReal) : Ideal.cmp .one x x = 0#1 := by simp [Ideal.cmp]

/-- An extended real does not differ from itself (unordered spelling). -/
theorem cmp_une_self (x : EReal) : Ideal.cmp .une x x = 0#1 := by simp [Ideal.cmp]

/-- b ∧ (0 xor 1) ∧ (0 xor 1) = b on one bit. -/
theorem and_xor_bit (b : BitVec 1) : IntOp.andi (IntOp.andi b (IntOp.xori 0#1 1#1)) (IntOp.xori 0#1 1#1) = b := by
  rcases BitVec.eq_zero_or_eq_one b with rfl | rfl <;> decide

/-- b ∧ ¬0 ∧ ¬0 = b on one bit. -/
theorem and_not_bit (b : BitVec 1) : IntOp.andi (IntOp.andi b (~~~ 0#1)) (~~~ 0#1) = b := by
  rcases BitVec.eq_zero_or_eq_one b with rfl | rfl <;> decide

/-- The kernel's valid bit is "the mask word is not zero". -/
theorem vK_eq (s : Fin 8192) : vK p t m s = IntOp.cmpi .ne (m s) 0#32 := by
  unfold vK; rw [cmp_one_self, cmp_one_self, and_xor_bit]

/-- The reference's valid bit is "the mask word is not zero". -/
theorem vR_eq (s : Fin 8192) : vR p t m s = IntOp.cmpi .ne (m s) 0#32 := by
  unfold vR; rw [cmp_une_self, cmp_une_self, and_not_bit]

/-- The two valid masks are one function. -/
theorem vR_eq_vK : vR p t m = vK p t m := by
  funext s; rw [vR_eq, vK_eq]

/-! ### Sums and counts -/

/-- Zero plus a sum is the sum. -/
theorem msumR_eq (v : Fin 8192 → BitVec 1) (f : Fin 8192 → EReal) : msumR v f = msum v f := by
  unfold msumR msum; rw [Z_eq, zero_add]

/-- The number of set bits of a mask. -/
def cnt (v : Fin 8192 → BitVec 1) : ℕ := (Finset.univ.filter fun s => v s = 1#1).card

/-- A mask over 8192 entries has at most 8192 set bits. -/
theorem cnt_le (v : Fin 8192 → BitVec 1) : cnt v ≤ 8192 := by
  unfold cnt
  exact le_trans (Finset.card_filter_le _ _) (by simp)

/-- Over any finite set, a sum of ones at the set bits and zeros elsewhere is the real number of set bits. -/
theorem sum_select_one (v : Fin 8192 → BitVec 1) (S : Finset (Fin 8192)) :
    ∑ s ∈ S, Scalar.select (v s) (1 : EReal) 0 = (((S.filter fun s => v s = 1#1).card : ℝ) : EReal) := by
  classical
  induction S using Finset.induction_on with
  | empty => simp
  | insert a S ha ih =>
    rw [Finset.sum_insert ha, ih, Finset.filter_insert]
    by_cases h : v a = 1#1
    · rw [if_pos h, h, select_one, Finset.card_insert_of_notMem (by simp [ha]), Nat.cast_succ, EReal.coe_add, EReal.coe_one,
        add_comm]
    · rw [if_neg h, eq_zero_of_ne_one h, select_zero, zero_add]

/-- The kernel's count is the real number of set bits. -/
theorem cntK_eq (v : Fin 8192 → BitVec 1) : cntK v = ((cnt v : ℝ) : EReal) := by
  unfold cntK cnt; rw [ONE_eq, Z_eq]; exact sum_select_one v Finset.univ

/-- The reference's count is the word whose value is the number of set bits. -/
theorem cntR_toNat (v : Fin 8192 → BitVec 1) : (cntR v).toNat = cnt v := by
  have hsum : ∑ s : Fin 8192, ((v s).setWidth 32).toNat = cnt v := by
    unfold cnt; rw [Finset.card_filter]
    exact Finset.sum_congr rfl fun s _ => toNat_setWidth_bit (v s)
  unfold cntR
  rw [toNat_fold_addi _ _ (by rw [hsum]; have := cnt_le v; omega), hsum]

/-- Two bits that are 1 under the same condition are equal. -/
theorem bit_ext {a b : BitVec 1} (h : a = 1#1 ↔ b = 1#1) : a = b := by
  rcases BitVec.eq_zero_or_eq_one a with rfl | rfl <;> rcases BitVec.eq_zero_or_eq_one b with rfl | rfl
  · rfl
  · exact absurd (h.2 rfl) (by decide)
  · exact absurd (h.1 rfl) (by decide)
  · rfl

/-- "The count is positive" is one bit, read as a signed word or as a real. -/
theorem sgt_cnt_eq (v : Fin 8192 → BitVec 1) : IntOp.cmpi .sgt (cntR v) 0#32 = Ideal.cmp .ogt (cntK v) Z := by
  apply bit_ext
  have hk := cnt_le v
  rw [sgt_iff_toNat (by rw [cntR_toNat]; omega) (by decide), cntR_toNat, cntK_eq, Z_eq]
  simp only [Ideal.cmp, ofBool_eq_one_iff, decide_eq_true_eq, BitVec.toNat_ofNat]
  rw [EReal.coe_pos, Nat.cast_pos]

/-- The signed word max of the count and 1, converted exactly, is the max of the real count and 1. -/
theorem maxsi_cnt_eq (v : Fin 8192 → BitVec 1) :
    (((IntOp.maxsi (cntR v) 1#32).toInt : ℝ) : EReal) = max (cntK v) ONE := by
  have hk := cnt_le v
  have hn := cntR_toNat v
  have hlt : (cntR v).toNat < 2 ^ 31 := by rw [hn]; omega
  have hti : (cntR v).toInt = (cnt v : ℤ) := by rw [toInt_eq_toNat_of_lt hlt, hn]
  rw [cntK_eq, ONE_eq]
  unfold IntOp.maxsi
  by_cases h : 1 < cnt v
  · have hs : (1#32 : BitVec 32).slt (cntR v) = true := by
      simp only [BitVec.slt, hti, decide_eq_true_eq]
      have : (1#32 : BitVec 32).toInt = 1 := by decide
      rw [this]; exact_mod_cast h
    rw [if_pos hs, hti, max_eq_left]
    · simp
    · rw [← EReal.coe_one, EReal.coe_le_coe_iff]; exact_mod_cast h.le
  · have hs : ¬ (1#32 : BitVec 32).slt (cntR v) = true := by
      simp only [BitVec.slt, hti, decide_eq_true_eq]
      have : (1#32 : BitVec 32).toInt = 1 := by decide
      rw [this]; intro h'; exact h (by exact_mod_cast h')
    rw [if_neg hs, max_eq_right]
    · have : (1#32 : BitVec 32).toInt = 1 := by decide
      rw [this]; simp
    · rw [← EReal.coe_one, EReal.coe_le_coe_iff]; exact_mod_cast (not_lt.1 h)

/-- The guarded root of the mean is the same on the word count and on the real count. -/
theorem rmseR_eq (ss : EReal) (v : Fin 8192 → BitVec 1) : rmseR ss (cntR v) = rmseK ss (cntK v) := by
  unfold rmseR rmseK; rw [sgt_cnt_eq, maxsi_cnt_eq]

/-- The guarded peak difference is the same in both spellings. -/
theorem peakR_eq : peakR p t m = peakK p t m := by
  unfold peakR peakK; rw [vR_eq_vK, sgt_cnt_eq]

/-! ### The high-value mask -/

/-- Every extended real is at least -∞. -/
theorem cmp_oge_bot (x : EReal) : Ideal.cmp .oge x ⊥ = 1#1 := by simp [Ideal.cmp]

/-- Comparing against -∞ where the peak is not positive is selecting the constant true there. -/
theorem hR_eq_hK : hR p t m = hK p t m := by
  funext s
  unfold hR hK; rw [vR_eq_vK]
  rcases BitVec.eq_zero_or_eq_one (Ideal.cmp .ole (mmax (vK p t m) t) Z) with h | h
  · rw [h, select_zero, select_zero]
  · rw [h, select_one, select_one, NINF_eq, cmp_oge_bot]

theorem rowLossK_eq_rowLossR : rowLossK p t m = rowLossR p t m := by
  unfold rowLossK rowLossR
  rw [msumR_eq, msumR_eq, rmseR_eq, rmseR_eq, peakR_eq, hR_eq_hK, vR_eq_vK]

/-! ## The mean over the 2048 rows -/

/-- Both programs end the same way: the 2048 per-row losses are summed from zero and the sum divided by 2048. -/
def meanAll (L : FVec Ideal ⟨1, ![2048]⟩ .f32) : FVec Ideal ⟨0, ![]⟩ .f32 :=
  Host.divf (Host.reduceAdd (axes := [0]) L (constant ⟨0, ![]⟩ .f32 0x00000000#32) (by decide) (by decide))
    (constant ⟨0, ![]⟩ .f32 0x45000000#32)

end PeakFlood

end
-- ==== Proof.Total.lean ====
/-
  The whole result as ONE function of the three argument arrays: row r of the [2048, 8192, 1] arrays gives the row's
  loss (RowLoss.lean), and the 2048 losses are averaged.
-/
import proofs.«413434_j16612933501051_4_alg».proof.Proof.RowLoss

noncomputable section

namespace PeakFlood

open Idealize.ShloMosaic Idealize.ShloMosaic.ValueIdx

/-- The argument arrays' index type, and row r of an argument array. -/
abbrev A3 : Shape := ⟨3, ![2048, 8192, 1]⟩
def rowOf {α : Type} (a : A3.Idx → α) (r : Fin 2048) : Fin 8192 → α := fun s => a (ix3 r s (0 : Fin 1))

/-- The per-row losses, in the kernel's spelling. -/
def lossOf (a0 a1 : A3.Idx → EReal) (a2 : A3.Idx → BitVec 32) : FVec Ideal ⟨1, ![2048]⟩ .f32 :=
  fun i => rowLossK (rowOf a0 (i 0)) (rowOf a1 (i 0)) (rowOf a2 (i 0))

/-- The result both programs compute. -/
def G (a0 a1 : A3.Idx → EReal) (a2 : A3.Idx → BitVec 32) : FVec Ideal ⟨0, ![]⟩ .f32 := meanAll (lossOf a0 a1 a2)

end PeakFlood

end
-- ==== Proof.KernelRow.lean ====
/-
  What the kernel's body leaves in its output block, read at row j: the kernel's scalar spelling of the row loss
  (RowLoss.lean, rowLossK) of row j of the three input blocks. The block's one store covers it whole, each load
  reads a whole block, every elementwise operation is read at its index, the three lane sums are sums over the row's
  8192 entries, the two lane maxima are folds of max over them, and the [128] -> [128, 1] casts and the
  [128, 1] -> [128, 8192] broadcast keep the row.
-/
import proofs.«413434_j16612933501051_4_alg».proof.Proof.Gen.KernelIdeal.Frame
import proofs.«413434_j16612933501051_4_alg».proof.Proof.RowLoss
import Idealize.ShloMosaic.Lib.Pipeline.Value
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.TcCoe Idealize.SL.Sem Idealize.ShloMosaic.ValueIdx

/-- The zero offsets of a whole-block rectangle, however spelt. -/
theorem zeros2 : (![0, 0] : Fin 2 → Nat) = fun _ => 0 := funext fun a => by fin_cases a <;> rfl

/-- A column cast [a] -> [a, 1] read at (i, u) is the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] read at (i, j) is the column at (i, 0). -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The index a lane reduction inserts: entry k of row j. -/
theorem lift_row (j : Fin 128) (k : Fin 8192) : reduces_S128x8192_S128.lift (ix1 j) k = ix2 j k := by
  funext a; apply Fin.ext
  match a with
  | ⟨0, _⟩ => rfl
  | ⟨1, _⟩ => rfl

/-- A lane sum kept as a column, read at row j: the sum of the row's entries. -/
theorem rowSum_apply (v : FVec Ideal S128x8192 .f32) (j : Fin 128) :
    shapeCast S128x1 (multiReduction (F := Ideal) .add [1] S128 v 0x00000000#32 reduces_S128x8192_S128 (.inl rfl) rfl)
        shapeCasts_S128_S128x1 (ix2 j (0 : Fin 1))
      = ∑ s : Fin 8192, v (ix2 j s) := by
  refine (shapeCast_a_a1_apply _ _ j 0).trans ?_
  refine (Ideal.multiReduction_add_single v _ reduces_S128x8192_S128 (.inl rfl) rfl (ix1 j)).trans ?_
  exact Finset.sum_congr rfl fun s _ => congrArg v (lift_row j s)

/-- A lane maximum kept as a column, read at row j: the fold of max over the row's entries, from -∞. -/
theorem rowMax_apply (v : FVec Ideal S128x8192 .f32) (j : Fin 128) :
    shapeCast S128x1 (multiReduction (F := Ideal) .maximumf [1] S128 v 0xFF800000#32 reduces_S128x8192_S128 (.inl rfl) rfl)
        shapeCasts_S128_S128x1 (ix2 j (0 : Fin 1))
      = (Finset.univ : Finset (Fin 8192)).fold max PeakFlood.NINF (fun s => v (ix2 j s)) := by
  refine (shapeCast_a_a1_apply _ _ j 0).trans ?_
  refine (Ideal.multiReduction_maximumf_single v _ reduces_S128x8192_S128 (.inl rfl) rfl (ix1 j)).trans ?_
  exact congrArg (Finset.univ.fold max _) (funext fun s => congrArg v (lift_row j s))

/-! ## The payloads, each read at an index of row j -/

section Row

variable (x0 x1 : Vec Ideal S128x8192 .f32) (x2 : Vec Ideal S128x8192 .i32) (j : Fin 128)

local notation "pr" => (fun s : Fin 8192 => x0 (ix2 j s))
local notation "tr" => (fun s : Fin 8192 => x1 (ix2 j s))
local notation "mr" => (fun s : Fin 8192 => x2 (ix2 j s))

/-- The two identity casts of the loaded blocks. -/
theorem pay2_eq (x : Vec Ideal S128x8192 .f32) : k0_pay2 (F := Ideal) x = x := shapeCast_self _ _
theorem pay3_eq (x : Vec Ideal S128x8192 .f32) : k0_pay3 (F := Ideal) x = x := shapeCast_self _ _

/-- The validity bit of entry (j, s). -/
theorem pay4_apply (s : Fin 8192) :
    k0_pay4 (F := Ideal) x0 x1 x2 (ix2 j s) = PeakFlood.vK pr tr mr s := by
  unfold k0_pay4
  rw [pay2_eq, pay3_eq, shapeCast_self]
  rfl

/-- The number of valid entries of row j. -/
theorem pay5_apply :
    k0_pay5 (F := Ideal) x0 x1 x2 (ix2 j (0 : Fin 1)) = PeakFlood.cntK (PeakFlood.vK pr tr mr) := by
  unfold k0_pay5
  refine (rowSum_apply _ j).trans ?_
  refine Finset.sum_congr rfl fun s _ => ?_
  show Scalar.select (k0_pay4 (F := Ideal) x0 x1 x2 (ix2 j s)) _ _ = _
  rw [pay4_apply]
  rfl
/-- The valid bits of row j, as a function of the lane. -/
theorem pay4_row : (fun s : Fin 8192 => k0_pay4 (F := Ideal) x0 x1 x2 (ix2 j s)) = PeakFlood.vK pr tr mr :=
  funext (pay4_apply x0 x1 x2 j)

/-- A lane sum of ones over a mask, at row j: the count of the row's set bits. -/
theorem cnt_apply (v : IVec S128x8192 1) :
    shapeCast S128x1 (multiReduction (F := Ideal) .add [1] S128
        (select v (broadcast S128x8192 (Scalar.ofBits .f32 0x3F800000#32)) (broadcast S128x8192 (Scalar.ofBits .f32 0x00000000#32)))
        0x00000000#32 reduces_S128x8192_S128 (.inl rfl) rfl) shapeCasts_S128_S128x1 (ix2 j (0 : Fin 1))
      = PeakFlood.cntK (fun s => v (ix2 j s)) :=
  (rowSum_apply _ j).trans (Finset.sum_congr rfl fun s _ => rfl)

/-- A lane sum of squared differences over a mask, at row j. -/
theorem msum_apply (v : IVec S128x8192 1) (a b : FVec Ideal S128x8192 .f32) :
    shapeCast S128x1 (multiReduction (F := Ideal) .add [1] S128
        (select v (mulf (subf a b) (subf a b)) (broadcast S128x8192 (Scalar.ofBits .f32 0x00000000#32)))
        0x00000000#32 reduces_S128x8192_S128 (.inl rfl) rfl) shapeCasts_S128_S128x1 (ix2 j (0 : Fin 1))
      = PeakFlood.msum (fun s => v (ix2 j s)) (PeakFlood.sq (fun s => a (ix2 j s)) (fun s => b (ix2 j s))) :=
  (rowSum_apply _ j).trans (Finset.sum_congr rfl fun s _ => rfl)

/-- A lane maximum over a mask, at row j. -/
theorem mmax_apply (v : IVec S128x8192 1) (f : FVec Ideal S128x8192 .f32) :
    shapeCast S128x1 (multiReduction (F := Ideal) .maximumf [1] S128
        (select v f (broadcast S128x8192 (Scalar.ofBits .f32 0xF149F2CA#32)))
        0xFF800000#32 reduces_S128x8192_S128 (.inl rfl) rfl) shapeCasts_S128_S128x1 (ix2 j (0 : Fin 1))
      = PeakFlood.mmax (fun s => v (ix2 j s)) (fun s => f (ix2 j s)) :=
  rowMax_apply _ j

/-- The guarded root of a mean, at row j, from its two columns. -/
theorem rmse_apply (ss n : FVec Ideal S128x1 .f32) :
    select (cmpf .ogt n (broadcast S128x1 (Scalar.ofBits .f32 0x00000000#32)))
        (sqrt (select (cmpf .ogt n (broadcast S128x1 (Scalar.ofBits .f32 0x00000000#32)))
          (divf ss (maximumf n (broadcast S128x1 (Scalar.ofBits .f32 0x3F800000#32))))
          (broadcast S128x1 (Scalar.ofBits .f32 0x3F800000#32))))
        (broadcast S128x1 (Scalar.ofBits .f32 0x00000000#32)) (ix2 j (0 : Fin 1))
      = PeakFlood.rmseK (ss (ix2 j 0)) (n (ix2 j 0)) := rfl

/-- The root-mean-square error of row j over its valid entries. -/
theorem pay6_apply :
    k0_pay6 (F := Ideal) x0 x1 x2 (ix2 j (0 : Fin 1))
      = PeakFlood.rmseK (PeakFlood.msum (PeakFlood.vK pr tr mr) (PeakFlood.sq pr tr)) (PeakFlood.cntK (PeakFlood.vK pr tr mr)) := by
  unfold k0_pay6
  refine (rmse_apply j _ _).trans ?_
  refine congrArg₂ PeakFlood.rmseK ?_ (pay5_apply x0 x1 x2 j)
  refine (msum_apply j _ _ _).trans ?_
  rw [pay4_row, pay2_eq, pay3_eq]

/-- The masked targets and the masked predictions at (j, s). -/
theorem pay7_apply (s : Fin 8192) :
    k0_pay7 (F := Ideal) x0 x1 x2 (ix2 j s) = Scalar.select (PeakFlood.vK pr tr mr s) (x1 (ix2 j s)) PeakFlood.NEG := by
  unfold k0_pay7
  show Scalar.select (k0_pay4 (F := Ideal) x0 x1 x2 (ix2 j s)) (k0_pay3 (F := Ideal) x1 (ix2 j s)) _ = _
  rw [pay4_apply, pay3_eq]
  rfl

/-- The target peak of row j. -/
theorem pay9_pay7_apply :
    k0_pay9 (F := Ideal) (k0_pay7 (F := Ideal) x0 x1 x2) (ix2 j (0 : Fin 1)) = PeakFlood.mmax (PeakFlood.vK pr tr mr) tr := by
  unfold k0_pay9 k0_pay7
  refine (mmax_apply j _ _).trans ?_
  rw [pay4_row, pay3_eq]

/-- The prediction peak of row j. -/
theorem max_pay8_apply :
    shapeCast S128x1 (multiReduction (F := Ideal) .maximumf [1] S128 (k0_pay8 (F := Ideal) x0 x1 x2)
        0xFF800000#32 reduces_S128x8192_S128 (.inl rfl) rfl) shapeCasts_S128_S128x1 (ix2 j (0 : Fin 1))
      = PeakFlood.mmax (PeakFlood.vK pr tr mr) pr := by
  unfold k0_pay8
  refine (mmax_apply j _ _).trans ?_
  rw [pay4_row, pay2_eq]

/-- The peak term from the row's count and its two masked peaks. -/
def peakS (n mp mt : EReal) : EReal :=
  Scalar.select (Ideal.cmp .ogt n PeakFlood.Z) (max (mp - mt) (-(mp - mt))) PeakFlood.Z

/-- The guarded absolute difference of two columns, at row j. -/
theorem peak_apply (n a b : FVec Ideal S128x1 .f32) :
    select (cmpf .ogt n (broadcast S128x1 (Scalar.ofBits .f32 0x00000000#32))) (absf (subf a b))
        (broadcast S128x1 (Scalar.ofBits .f32 0x00000000#32)) (ix2 j (0 : Fin 1))
      = peakS (n (ix2 j 0)) (a (ix2 j 0)) (b (ix2 j 0)) := rfl

/-- The peak term of row j. -/
theorem pay10_apply :
    k0_pay10 (F := Ideal) (k0_pay5 (F := Ideal) x0 x1 x2) (k0_pay7 (F := Ideal) x0 x1 x2) (k0_pay8 (F := Ideal) x0 x1 x2) (ix2 j (0 : Fin 1))
      = PeakFlood.peakK pr tr mr := by
  unfold k0_pay10
  refine (peak_apply j _ _ _).trans ?_
  rw [pay5_apply, max_pay8_apply, pay9_pay7_apply]
  rfl

/-- The high-value bit from the valid bit, the target and the row's target peak. -/
def highS (v : BitVec 1) (t mt : EReal) : BitVec 1 :=
  IntOp.andi v (Ideal.cmp .oge t
    (Scalar.select (Ideal.cmp .ole mt PeakFlood.Z) PeakFlood.NINF (mt * PeakFlood.C08)))

/-- The threshold column broadcast along the lanes and compared against every target, at (j, s). -/
theorem high_apply (v : IVec S128x8192 1) (t : FVec Ideal S128x8192 .f32) (c : FVec Ideal S128x1 .f32) (s : Fin 8192) :
    andi v (cmpf .oge t (broadcastTo S128x8192
        (select (cmpf .ole c (broadcast S128x1 (Scalar.ofBits .f32 0x00000000#32)))
          (broadcast S128x1 (Scalar.ofBits .f32 0xFF800000#32))
          (mulf c (broadcast S128x1 (Scalar.ofBits .f32 0x3F4CCCCD#32))))
        broadcasts_S128x1_S128x8192)) (ix2 j s)
      = highS (v (ix2 j s)) (t (ix2 j s)) (c (ix2 j 0)) := by
  show IntOp.andi (v (ix2 j s)) (Ideal.cmp .oge (t (ix2 j s)) (broadcastTo S128x8192 _ broadcasts_S128x1_S128x8192 (ix2 j s))) = _
  rw [broadcastTo_a1_ab_apply]
  rfl

/-- The high-value bits of row j, as a function of the lane. -/
theorem high_row :
    (fun s : Fin 8192 => andi (k0_pay4 (F := Ideal) x0 x1 x2) (cmpf .oge (k0_pay3 (F := Ideal) x1) (broadcastTo S128x8192
        (select (cmpf .ole (k0_pay9 (F := Ideal) (k0_pay7 (F := Ideal) x0 x1 x2)) (broadcast S128x1 (Scalar.ofBits .f32 0x00000000#32)))
          (broadcast S128x1 (Scalar.ofBits .f32 0xFF800000#32))
          (mulf (k0_pay9 (F := Ideal) (k0_pay7 (F := Ideal) x0 x1 x2)) (broadcast S128x1 (Scalar.ofBits .f32 0x3F4CCCCD#32))))
        broadcasts_S128x1_S128x8192)) (ix2 j s))
      = PeakFlood.hK pr tr mr := by
  funext s
  rw [high_apply, pay4_apply, pay3_eq, pay9_pay7_apply]
  rfl

/-- The root-mean-square error of row j over its high-value entries. -/
theorem pay11_apply :
    k0_pay11 (F := Ideal) (k0_pay2 (F := Ideal) x0) (k0_pay3 (F := Ideal) x1) (k0_pay4 (F := Ideal) x0 x1 x2) (k0_pay7 (F := Ideal) x0 x1 x2)
        (ix2 j (0 : Fin 1))
      = PeakFlood.rmseK (PeakFlood.msum (PeakFlood.hK pr tr mr) (PeakFlood.sq pr tr)) (PeakFlood.cntK (PeakFlood.hK pr tr mr)) := by
  unfold k0_pay11
  refine (rmse_apply j _ _).trans ?_
  refine congrArg₂ PeakFlood.rmseK ?_ ?_
  · refine (msum_apply j _ _ _).trans ?_
    rw [high_row, pay2_eq, pay3_eq]
  · refine (cnt_apply j _).trans ?_
    rw [high_row]

/-- The weighted sum of the three terms. -/
def lossS (r1 pk r2 : EReal) : EReal := (PeakFlood.HALF * r1 + PeakFlood.TWO * pk) + PeakFlood.ONE * r2

/-- The body's last two payloads, at row j. -/
theorem pay1_pay12_apply (v34 v48 v78 : FVec Ideal S128x1 .f32) :
    k0_pay1 (F := Ideal) v48 v78 (k0_pay12 (F := Ideal) v34) (Scalar.ofBits .f32 0x40000000#32) (ix2 j (0 : Fin 1))
      = lossS (v34 (ix2 j 0)) (v48 (ix2 j 0)) (v78 (ix2 j 0)) := rfl

end Row

/-- What the body leaves in its output block at row j: the row loss of row j of the three input blocks. -/
theorem out_row (x0 x1 : Vec Ideal S128x8192 .f32) (x2 : Vec Ideal S128x8192 .i32) (j : Fin 128) :
    Cert.KernelIdeal.Gen.out0_3 (F := Ideal) x0 x1 x2 (ix2 j (0 : Fin 1))
      = PeakFlood.rowLossK (fun s => x0 (ix2 j s)) (fun s => x1 (ix2 j s)) (fun s => x2 (ix2 j s)) := by
  unfold Gen.out0_3
  rw [View.canon_unit_zero zeros2]
  simp only [View.ld_unit_zero (S := S128x8192) zeros2]
  refine (pay1_pay12_apply j _ _ _).trans ?_
  rw [pay6_apply, pay10_apply, pay11_apply]
  rfl

end Cert.KernelIdeal.RowValue

end
-- ==== Proof.KernelRun.lean ====
/-
  The kernel program's run, read: the result buffer ends at the mean of the per-row losses of the three arguments.
  The region finds each [2048, 8192] array as its argument with the trailing unit axis dropped; point t of the grid
  reads rows 128 t .. 128 t + 127 of the three arrays and writes the 128 losses of those rows as block t of the
  [2048, 1] output; the sixteen blocks tile the output; the lines after the region drop the unit axis, sum the 2048
  losses from zero and divide by 2048.
-/
import proofs.«413434_j16612933501051_4_alg».proof.Proof.Gen.KernelIdeal.Frame
import proofs.«413434_j16612933501051_4_alg».proof.Proof.KernelRow
import proofs.«413434_j16612933501051_4_alg».proof.Proof.Total
import Idealize.ShloMosaic.Lib.Pipeline.Value
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three argument arrays on core c. -/
abbrev a0 (c : Dev nD) : PeakFlood.A3.Idx → EReal := m ((c : Thread nD τ).loc main_arg0)
abbrev a1 (c : Dev nD) : PeakFlood.A3.Idx → EReal := m ((c : Thread nD τ).loc main_arg1)
abbrev a2 (c : Dev nD) : PeakFlood.A3.Idx → BitVec 32 := m ((c : Thread nD τ).loc main_arg2)

/-! ## The arrays the region finds -/

theorem V_v0 (c : Dev nD) : (V m c main_v0 : S2048x8192.Idx → EReal) = shapeCast _ (a0 m c) shapeCasts_S2048x8192x1_S2048x8192 := by
  show StableHlo.after hostOps0 (fun b => m (c, b)) (Proc.devRef .tc main_v0) = _
  after_results; rfl
theorem V_v1 (c : Dev nD) : (V m c main_v1 : S2048x8192.Idx → EReal) = shapeCast _ (a1 m c) shapeCasts_S2048x8192x1_S2048x8192 := by
  show StableHlo.after hostOps0 (fun b => m (c, b)) (Proc.devRef .tc main_v1) = _
  after_results; rfl
theorem V_v2 (c : Dev nD) : (V m c main_v2 : S2048x8192.Idx → BitVec 32) = shapeCast _ (a2 m c) shapeCasts_S2048x8192x1_S2048x8192 := by
  show StableHlo.after hostOps0 (fun b => m (c, b)) (Proc.devRef .tc main_v2) = _
  after_results; rfl

/-- Dropping the trailing unit axis keeps the entry. -/
theorem drop_unit_apply {α : Type} (a : PeakFlood.A3.Idx → α) (R : Fin 2048) (s : Fin 8192) :
    (shapeCast S2048x8192 a shapeCasts_S2048x8192x1_S2048x8192) (ix2 R s) = a (ix3 R s (0 : Fin 1)) :=
  shapeCast_apply a shapeCasts_S2048x8192x1_S2048x8192 (ix2 R s) (ix3 R s (0 : Fin 1))
    (by rewrite [Shape.rowMajor_val_three, Shape.rowMajor_val_two]; show (R.val * 8192 + s.val) * 1 + 0 = R.val * 8192 + s.val; omega)

/-- The printed index maps over the grid: every window's block index at point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 16 := lt_of_lt_of_eq t.isLt N_0

/-! ## The input blocks at a point are rows of the arguments -/

/-- Row 128 t + j, a row of the arrays. -/
abbrev rowAt (t : Fin cfg0.N) (j : Fin 128) : Fin 2048 := ⟨t.val * 128 + j.val, by have := t_lt t; have := j.isLt; omega⟩

theorem iblk0_apply (c : Dev nD) (t : Fin cfg0.N) (j : Fin 128) (s : Fin 8192) :
    (iblk m c 0 t : Vec Ideal S128x8192 .f32) (ix2 j s) = a0 m c (ix3 (rowAt t j) s (0 : Fin 1)) := by
  obtain ⟨e0, e1, -⟩ := idx_facts t
  unfold iblk
  rw [View.read_apply]
  show (V m c main_v0 : S2048x8192.Idx → EReal) _ = _
  rw [V_v0, ← drop_unit_apply (a0 m c) (rowAt t j) s]
  congr 1
  funext a
  apply Fin.ext
  match a with
  | ⟨0, _⟩ => show win0_0.index t (0 : Fin 2) * 128 + 1 * j.val = t.val * 128 + j.val; rw [e0]; omega
  | ⟨1, _⟩ => show win0_0.index t (1 : Fin 2) * 8192 + 1 * s.val = s.val; rw [e1]; omega

theorem iblk1_apply (c : Dev nD) (t : Fin cfg0.N) (j : Fin 128) (s : Fin 8192) :
    (iblk m c 1 t : Vec Ideal S128x8192 .f32) (ix2 j s) = a1 m c (ix3 (rowAt t j) s (0 : Fin 1)) := by
  obtain ⟨-, -, e0, e1, -⟩ := idx_facts t
  unfold iblk
  rw [View.read_apply]
  show (V m c main_v1 : S2048x8192.Idx → EReal) _ = _
  rw [V_v1, ← drop_unit_apply (a1 m c) (rowAt t j) s]
  congr 1
  funext a
  apply Fin.ext
  match a with
  | ⟨0, _⟩ => show win0_1.index t (0 : Fin 2) * 128 + 1 * j.val = t.val * 128 + j.val; rw [e0]; omega
  | ⟨1, _⟩ => show win0_1.index t (1 : Fin 2) * 8192 + 1 * s.val = s.val; rw [e1]; omega

theorem iblk2_apply (c : Dev nD) (t : Fin cfg0.N) (j : Fin 128) (s : Fin 8192) :
    (iblk m c 2 t : Vec Ideal S128x8192 .i32) (ix2 j s) = a2 m c (ix3 (rowAt t j) s (0 : Fin 1)) := by
  obtain ⟨-, -, -, -, e0, e1, -⟩ := idx_facts t
  unfold iblk
  rw [View.read_apply]
  show (V m c main_v2 : S2048x8192.Idx → BitVec 32) _ = _
  rw [V_v2, ← drop_unit_apply (a2 m c) (rowAt t j) s]
  congr 1
  funext a
  apply Fin.ext
  match a with
  | ⟨0, _⟩ => show win0_2.index t (0 : Fin 2) * 128 + 1 * j.val = t.val * 128 + j.val; rw [e0]; omega
  | ⟨1, _⟩ => show win0_2.index t (1 : Fin 2) * 8192 + 1 * s.val = s.val; rw [e1]; omega

/-! ## What point t writes back, and the output array -/

/-- The [2048, 1] output: entry (R, 0) is row R's loss. -/
def lossArr (c : Dev nD) : S2048x1.Idx → EReal :=
  fun i => PeakFlood.lossOf (a0 m c) (a1 m c) (a2 m c) (ix1 ⟨(i 0).val, idx2_lt0 i⟩)

theorem flushed_eq (c : Dev nD) (t : Fin cfg0.N) :
    (dats m 0 c).flushed 3 t = ((cfg0.win 3).blk t).view.read (Elt Ideal) (lossArr m c) := by
  obtain ⟨-, -, -, -, -, -, e0, e1⟩ := idx_facts t
  show (cfg0.win 3).cut (grid0.coords t) ((dats m 0 c).after 3 t) = _
  rw [after0_3]
  funext y
  have hy1 : (y 1).val = 0 := by have h : (y 1).val < 1 := (y 1).isLt; omega
  obtain ⟨j, rfl⟩ : ∃ j : Fin 128, y = ix2 j (0 : Fin 1) :=
    ⟨⟨(y 0).val, (show (y 0).val < 128 from (y 0).isLt)⟩, funext fun a => by match a with | ⟨0, _⟩ => rfl | ⟨1, _⟩ => exact Fin.ext hy1⟩
  show out0_3 (iblk m c 0 t) (iblk m c 1 t) (iblk m c 2 t) (ix2 j (0 : Fin 1)) = lossArr m c (((cfg0.win 3).blk t).view.emb (ix2 j (0 : Fin 1)))
  rw [RowValue.out_row]
  unfold lossArr PeakFlood.lossOf PeakFlood.rowOf
  have hr : (⟨((((cfg0.win 3).blk t).view.emb (ix2 j (0 : Fin 1))) 0).val, idx2_lt0 _⟩ : Fin 2048) = rowAt t j := by
    apply Fin.ext
    show win0_3.index t (0 : Fin 2) * 128 + 1 * j.val = t.val * 128 + j.val
    rw [e0]; omega
  show _ = PeakFlood.rowLossK (fun s => a0 m c (ix3 (⟨((((cfg0.win 3).blk t).view.emb (ix2 j (0 : Fin 1))) 0).val, idx2_lt0 _⟩ : Fin 2048) s (0 : Fin 1))) _ _
  rw [hr]
  simp only [iblk0_apply, iblk1_apply, iblk2_apply]

/-- An index of the output is in point t's block iff each coordinate is in the block's range on its axis. -/
theorem mem_blk (t : Fin cfg0.N) (i : S2048x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v3).slice (win0_3.rect t)).set ↔ _
  rw [View.set_slice_whole, Rect.mem_set_unit]
  exact Iff.rfl

/-- The sixteen blocks tile the output: row R is in block R / 128. -/
theorem cover (i : S2048x1.Idx) : ∃ t : Fin cfg0.N, (cfg0.win 3).flush t = true ∧ i ∈ ((cfg0.win 3).blk t).view.set := by
  have hi0 : (i 0).val < 2048 := (i 0).isLt
  have hi1 : (i 1).val < 1 := (i 1).isLt
  have ht : (i 0).val / 128 < cfg0.N := lt_of_lt_of_eq (by omega : (i 0).val / 128 < 16) N_0.symm
  obtain ⟨-, -, -, -, -, -, e0, e1⟩ := idx_facts ⟨(i 0).val / 128, ht⟩
  refine ⟨⟨(i 0).val / 128, ht⟩, flush0_3 _, ?_⟩
  rw [mem_blk]
  intro a
  match a with
  | ⟨0, _⟩ =>
    show win0_3.index ⟨(i 0).val / 128, ht⟩ (0 : Fin 2) * 128 ≤ (i 0).val ∧ (i 0).val < win0_3.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_3.index ⟨(i 0).val / 128, ht⟩ (1 : Fin 2) * 1 ≤ (i 1).val ∧ (i 1).val < win0_3.index ⟨(i 0).val / 128, ht⟩ (1 : Fin 2) * 1 + 1
    rw [e1]; omega

/-- The output array after the run. -/
theorem final (c : Dev nD) : (dats m 0 c).arrAt 3 cfg0.N = lossArr m c :=
  (dats m 0 c).arrAt_eq_of_cover 3 (lossArr m c) (fun t _ => flushed_eq m c t) cover

/-! ## The lines after the region -/

/-- Dropping the output's unit axis gives the vector of the 2048 losses. -/
theorem drop_col (c : Dev nD) :
    shapeCast S2048 (lossArr m c) shapeCasts_S2048x1_S2048 = PeakFlood.lossOf (a0 m c) (a1 m c) (a2 m c) := by
  funext i
  obtain ⟨R, rfl⟩ : ∃ R : Fin 2048, i = ix1 R := ⟨i 0, eq_ix1 i⟩
  rw [shapeCast_apply (lossArr m c) shapeCasts_S2048x1_S2048 (ix1 R) (ix2 R (0 : Fin 1))
    (by rewrite [Shape.rowMajor_val_two, Shape.rowMajor_val_one]; show R.val * 1 + 0 = R.val; omega)]
  rfl

/-- What the result buffer holds after the lines that follow the region. -/
theorem tail_eq (c : Dev nD) :
    Pipeline.afterTail₀ cfgs (dats m) 0 (V0 m) [hostOps1] c main_v6 = PeakFlood.G (a0 m c) (a1 m c) (a2 m c) := by
  unfold Pipeline.afterTail₀
  show StableHlo.after hostOps1 _ (Proc.devRef .tc main_v6) = _
  after_results
  have hw := (Pipeline.withArrays_arr spec0 launch0.win.arr_inj c (V0 m c) (fun w => (dats m 0 c).arrAt w cfg0.N) 3).trans (final m c)
  show Host.divf (F := Ideal) (Host.reduceAdd (F := Ideal) (shapeCast S2048 ((Pipeline.withArrays spec0 c (V0 m c) (fun w => (dats m 0 c).arrAt w cfg0.N)
      (Proc.devRef .tc (Pipeline.arrRef spec0 3))) : S2048x1.Idx → EReal) shapeCasts_S2048x1_S2048) (constant (F := Ideal) S_ .f32 0x00000000#32) reducesTo_S2048_S_d0 h_S_)
      (constant (F := Ideal) S_ .f32 0x45000000#32) = _
  rw [hw, drop_col]
  rfl

/-! ## The run, read -/

/-- Every weakly fair execution of the kernel program terminates with the result buffer at G of the arguments and the
    arguments unchanged. -/
theorem run : θ_run defs (onTc (τ := τ) (main (F := Ideal))) ⟨m, fun _ => 0, ρ⟩ fun r => ∀ c : Dev nD,
      r.2.mem ((c.tc : Thread nD τ).loc main_v6) = PeakFlood.G (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.RefStages.lean ====
/-
  The reference program's @main as a handful of STAGES over whole arrays, each the composition of the host
  operations that compute one quantity (the valid mask, a count, a masked sum, a masked maximum, a guarded root
  mean, the high-value mask, the weighted sum, the mean over rows), with every shared intermediate named once.
  resultS is the whole program's result as a function of its three arguments; rowsS is the vector of per-row
  losses before the final mean. rowsS_apply reads rowsS at row r: it is the reference's scalar spelling of the
  row loss (RowLoss.lean, rowLossR) of row r of the three argument arrays.
-/
import proofs.«413434_j16612933501051_4_alg».proof.Proof.Gen.ReferenceIdeal
import proofs.«413434_j16612933501051_4_alg».proof.Proof.RowLoss
import Idealize.ShloMosaic.Lib.Pipeline.Value
import Idealize.ShloMosaic.PureOps.Ideal.Laws

noncomputable section

namespace Cert.ReferenceIdeal.Stage

open Cert.ReferenceIdeal Cert.ReferenceIdeal.Gen Idealize.ShloMosaic Idealize.ShloMosaic.TcCoe Idealize.SL.Sem Idealize.ShloMosaic.ValueIdx

variable {F : FTy → Type} [FloatOps F]

/-- Contents of the buffers the stages pass around: the 3-d arguments, the [2048, 8192] arrays, the [2048] vectors, scalars. -/
abbrev C3f (F : FTy → Type) := (⟨S2048x8192x1, .f32⟩ : BufTy).Contents (Elt F)
abbrev C3i (F : FTy → Type) := (⟨S2048x8192x1, .i32⟩ : BufTy).Contents (Elt F)
abbrev C2f (F : FTy → Type) := (⟨S2048x8192, .f32⟩ : BufTy).Contents (Elt F)
abbrev C2i (F : FTy → Type) := (⟨S2048x8192, .i32⟩ : BufTy).Contents (Elt F)
abbrev C2b (F : FTy → Type) := (⟨S2048x8192, .i1⟩ : BufTy).Contents (Elt F)
abbrev C1f (F : FTy → Type) := (⟨S2048, .f32⟩ : BufTy).Contents (Elt F)
abbrev C1i (F : FTy → Type) := (⟨S2048, .i32⟩ : BufTy).Contents (Elt F)
abbrev C1b (F : FTy → Type) := (⟨S2048, .i1⟩ : BufTy).Contents (Elt F)
abbrev C0f (F : FTy → Type) := (⟨S_, .f32⟩ : BufTy).Contents (Elt F)

/-- jnp.where(c, x, k) with a scalar k, over [2048, 8192] and over [2048]. -/
def where2 (c : C2b F) (x : C2f F) (k : C0f F) : C2f F :=
  select c x (broadcastInDim S2048x8192 ![] bcast_S_S2048x8192 (id k))
def where1 (c : C1b F) (x : C1f F) (k : C0f F) : C1f F :=
  select c x (broadcastInDim S2048 ![] bcast_S_S2048 (id k))

/-- The valid mask: the mask word is not zero, and neither value is a NaN. -/
def valid (p t : C2f F) (mk : C2i F) : C2b F :=
  andi (andi (id (cmpi .ne mk (broadcastInDim S2048x8192 ![] bcast_S_S2048x8192 (constantI S_ 32 0#32))))
    (noti (cmpf .une p p))) (noti (cmpf .une t t))

/-- The number of set bits in each row, as a 32-bit sum of the widened bits. -/
def cntI (v : C2b F) : C1i F :=
  Host.reduce IntOp.addi (extui 32 v natLt_1_32) (constantI S_ 32 0#32) reducesTo_S2048x8192_S2048_d1 h_S_

/-- The row's count is positive. -/
def gt0 (n : C1i F) : C1b F := cmpi .sgt n (broadcastInDim S2048 ![] bcast_S_S2048 (constantI S_ 32 0#32))

/-- The squared errors. -/
def sqd (p t : C2f F) : C2f F := mulf (subf p t) (subf p t)

/-- Each row's sum of x over the set bits. -/
def msumS (v : C2b F) (x : C2f F) : C1f F :=
  Host.reduceAdd (where2 v x (constant S_ .f32 0x00000000#32)) (constant S_ .f32 0x00000000#32) reducesTo_S2048x8192_S2048_d1 h_S_

/-- Each row's maximum of x over the set bits (-1e30 stands in elsewhere), from -∞. -/
def peakS (v : C2b F) (x : C2f F) : C1f F :=
  Host.reduce FloatOps.maximumf (where2 v x (constant S_ .f32 0xF149F2CA#32)) (constant S_ .f32 0xFF800000#32) reducesTo_S2048x8192_S2048_d1 h_S_

/-- The guarded root mean: sqrt (ss / max n 1) where 0 < n, zero elsewhere. -/
def rmseS (ss : C1f F) (n : C1i F) : C1f F :=
  where1 (gt0 n)
    (Host.sqrt (where1 (gt0 n)
      (Host.divf ss (sitofp .f32 (maxsi n (broadcastInDim S2048 ![] bcast_S_S2048 (constantI S_ 32 1#32)))))
      (constant S_ .f32 0x3F800000#32)))
    (constant S_ .f32 0x00000000#32)

/-- The absolute difference of the peaks where the row has a valid entry. -/
def peakErrS (nz : C1b F) (pp tp : C1f F) : C1f F :=
  where1 nz (Host.absf (subf pp tp)) (constant S_ .f32 0x00000000#32)

/-- The high-value mask: valid, and (the target peak is not positive, or the target is at least 0.8 of it). -/
def highS (v : C2b F) (t : C2f F) (tp : C1f F) : C2b F :=
  andi v (select
    (broadcastInDim S2048x8192 ![0, 1] bcast_S2048x1_S2048x8192_0_1
      (broadcastInDim S2048x1 ![0] bcast_S2048_S2048x1_0
        (cmpf .ole tp (broadcastInDim S2048 ![] bcast_S_S2048 (constant S_ .f32 0x00000000#32)))))
    (broadcastInDim S2048x8192 ![] bcast_S_S2048x8192 (constantI S_ 1 1#1))
    (cmpf .oge t
      (broadcastInDim S2048x8192 ![0, 1] bcast_S2048x1_S2048x8192_0_1
        (broadcastInDim S2048x1 ![0] bcast_S2048_S2048x1_0
          (mulf tp (broadcastInDim S2048 ![] bcast_S_S2048 (constant S_ .f32 0x3F4CCCCD#32)))))))

/-- 0.5 · overall + 2 · peak error + 1 · high-value. -/
def combineS (o pe h : C1f F) : C1f F :=
  addf (addf (mulf (broadcastInDim S2048 ![] bcast_S_S2048 (constant S_ .f32 0x3F000000#32)) o)
      (mulf (broadcastInDim S2048 ![] bcast_S_S2048 (constant S_ .f32 0x40000000#32)) pe))
    (mulf (broadcastInDim S2048 ![] bcast_S_S2048 (constant S_ .f32 0x3F800000#32)) h)

/-- The mean over the rows. -/
def meanS (L : C1f F) : C0f F :=
  Host.divf (Host.reduceAdd L (constant S_ .f32 0x00000000#32) reducesTo_S2048_S_d0 h_S_) (constant S_ .f32 0x45000000#32)

/-- The per-row losses from the three [2048, 8192] arrays. -/
def rowsS (p t : C2f F) (mk : C2i F) : C1f F :=
  combineS
    (rmseS (msumS (valid p t mk) (sqd p t)) (cntI (valid p t mk)))
    (peakErrS (gt0 (cntI (valid p t mk))) (peakS (valid p t mk) p) (peakS (valid p t mk) t))
    (rmseS (msumS (highS (valid p t mk) t (peakS (valid p t mk) t)) (sqd p t))
      (cntI (highS (valid p t mk) t (peakS (valid p t mk) t))))

/-- The program's result from its three arguments. -/
def resultS (x0 x1 : C3f F) (x2 : C3i F) : C0f F :=
  meanS (rowsS (shapeCast _ x0 shapeCasts_S2048x8192x1_S2048x8192) (shapeCast _ x1 shapeCasts_S2048x8192x1_S2048x8192)
    (shapeCast _ x2 shapeCasts_S2048x8192x1_S2048x8192))

/-! ## The stages read at a row

Every stage is read at row r (and, for the [2048, 8192] arrays, at entry s of that row) over variable arrays; a row of
an array x is the function fun s => x (ix2 r s). The pointwise stages read through by unfolding; a broadcast reads its
operand at the kept coordinates; a reduction along axis 1 reads as a sum or a fold over the row. -/

section Rows

variable (p t x : C2f Ideal) (mk : C2i Ideal) (v : C2b Ideal) (r : Fin 2048) (s : Fin 8192)

/-- The [2048, 8192] shape reduces along axis 1 to [2048]. -/
theorem reduces_d1 : S2048x8192.Reduces [1] S2048 := by decide

/-- The index a reduction along axis 1 inserts coordinate k at, from row r, is (r, k). -/
theorem lift_row (h : S2048x8192.Reduces [1] S2048) (k : Fin 8192) : h.lift (ix1 r) k = ix2 r k := by
  funext a
  refine Fin.ext ?_
  match a with
  | ⟨0, _⟩ => rfl
  | ⟨1, _⟩ => rfl

/-- The valid mask at (r, s) is the reference's scalar test of entry s of the three rows. -/
theorem valid_apply :
    valid (F := Ideal) p t mk (ix2 r s)
      = PeakFlood.vR (fun s => p (ix2 r s)) (fun s => t (ix2 r s)) (fun s => mk (ix2 r s)) s := rfl

/-- The squared errors at (r, s). -/
theorem sqd_apply :
    sqd (F := Ideal) p t (ix2 r s) = PeakFlood.sq (fun s => p (ix2 r s)) (fun s => t (ix2 r s)) s := rfl

/-- Row r's count is the 32-bit fold of the row's widened bits. -/
theorem cntI_apply : cntI (F := Ideal) v (ix1 r) = PeakFlood.cntR (fun s => v (ix2 r s)) := by
  unfold cntI PeakFlood.cntR
  rw [Host.reduce_eq_fold_single IntOp.addi _ _ reducesTo_S2048x8192_S2048_d1 reduces_d1 h_S_ (ix1 r)]
  refine congrArg (Finset.univ.fold IntOp.addi 0#32) (funext fun (k : Fin 8192) => ?_)
  exact congrArg (fun i => (v i).setWidth 32) (lift_row r reduces_d1 k)

/-- Row r's masked sum, from the zero initial value. -/
theorem msumS_apply :
    msumS (F := Ideal) v x (ix1 r) = PeakFlood.msumR (fun s => v (ix2 r s)) (fun s => x (ix2 r s)) := by
  unfold msumS PeakFlood.msumR
  simp only [Host.reduceAdd, Ideal.hostReduceAdd_def]
  rw [Ideal.hostReduceAdd_single reducesTo_S2048x8192_S2048_d1 reduces_d1]
  refine congrArg (_ + ·) (Finset.sum_congr rfl fun (k : Fin 8192) _ => ?_)
  exact (congrArg (where2 (F := Ideal) v x (constant (F := Ideal) S_ .f32 0x00000000#32))
    (lift_row r reduces_d1 k)).trans rfl

/-- Row r's masked maximum, from -∞. -/
theorem peakS_apply :
    peakS (F := Ideal) v x (ix1 r) = PeakFlood.mmax (fun s => v (ix2 r s)) (fun s => x (ix2 r s)) := by
  unfold peakS PeakFlood.mmax
  rw [Host.reduce_eq_fold_single FloatOps.maximumf _ _ reducesTo_S2048x8192_S2048_d1 reduces_d1 h_S_ (ix1 r)]
  refine congrArg (Finset.univ.fold max PeakFlood.NINF) (funext fun (k : Fin 8192) => ?_)
  exact (congrArg (where2 (F := Ideal) v x (constant (F := Ideal) S_ .f32 0xF149F2CA#32))
    (lift_row r reduces_d1 k)).trans rfl

end Rows

section Vectors

variable (ss pp tp o pe hv : C1f Ideal) (n : C1i Ideal) (nz : C1b Ideal) (v : C2b Ideal) (t : C2f Ideal)
  (r : Fin 2048) (s : Fin 8192)

/-- "The count is positive" at row r. -/
theorem gt0_apply : gt0 (F := Ideal) n (ix1 r) = IntOp.cmpi .sgt (n (ix1 r)) 0#32 := rfl

/-- The guarded root mean at row r. -/
theorem rmseS_apply : rmseS (F := Ideal) ss n (ix1 r) = PeakFlood.rmseR (ss (ix1 r)) (n (ix1 r)) := rfl

/-- The peak error at row r. -/
theorem peakErrS_apply :
    peakErrS (F := Ideal) nz pp tp (ix1 r)
      = Scalar.select (nz (ix1 r))
          (max (pp (ix1 r) - tp (ix1 r)) (-(pp (ix1 r) - tp (ix1 r)))) PeakFlood.Z := rfl

/-- The weighted sum at row r. -/
theorem combineS_apply :
    combineS (F := Ideal) o pe hv (ix1 r)
      = (PeakFlood.HALF * o (ix1 r) + PeakFlood.TWO * pe (ix1 r)) + PeakFlood.ONE * hv (ix1 r) := rfl

/-- A vector over the rows, made a column and spread along each row, read at (r, s) is the vector at r. -/
theorem spread_apply {α : Type} (w : S2048.Idx → α) :
    broadcastInDim S2048x8192 ![0, 1] bcast_S2048x1_S2048x8192_0_1
        (broadcastInDim S2048x1 ![0] bcast_S2048_S2048x1_0 w) (ix2 r s) = w (ix1 r) := by
  rw [broadcastInDim_apply _ bcast_S2048x1_S2048x8192_0_1 _ (ix2 r s) (ix2 r (0 : Fin 1))
    (fun a => by match a with | ⟨0, _⟩ => rfl | ⟨1, _⟩ => rfl)]
  exact broadcastInDim_apply _ bcast_S2048_S2048x1_0 w (ix2 r (0 : Fin 1)) (ix1 r)
    (fun a => by match a with | ⟨0, _⟩ => rfl)

/-- The high-value mask at (r, s): valid there, and the row's target peak is not positive or the target is at least
    0.8 of it. -/
theorem highS_apply :
    highS (F := Ideal) v t tp (ix2 r s)
      = IntOp.andi (v (ix2 r s))
          (Scalar.select (Ideal.cmp .ole (tp (ix1 r)) PeakFlood.Z) 1#1
            (Ideal.cmp .oge (t (ix2 r s)) (tp (ix1 r) * PeakFlood.C08))) := by
  unfold highS
  simp only [andi, select, cmpf]
  rw [spread_apply, spread_apply]
  rfl

end Vectors

section Assemble

variable (p t : C2f Ideal) (mk : C2i Ideal) (r : Fin 2048)

/-- Row r of the high-value mask is the reference's scalar high-value test along the row. -/
theorem highS_row :
    (fun s => highS (F := Ideal) (valid p t mk) t (peakS (valid p t mk) t) (ix2 r s))
      = PeakFlood.hR (fun s => p (ix2 r s)) (fun s => t (ix2 r s)) (fun s => mk (ix2 r s)) := by
  funext s
  rw [highS_apply, peakS_apply]
  rfl

/-- Row r of the per-row losses over any three [2048, 8192] arrays: the reference's scalar row loss of their rows r. -/
theorem rowsS_row :
    rowsS (F := Ideal) p t mk (ix1 r)
      = PeakFlood.rowLossR (fun s => p (ix2 r s)) (fun s => t (ix2 r s)) (fun s => mk (ix2 r s)) := by
  unfold rowsS PeakFlood.rowLossR PeakFlood.peakR
  rw [combineS_apply, rmseS_apply, rmseS_apply, peakErrS_apply, gt0_apply, msumS_apply, msumS_apply,
    cntI_apply, cntI_apply, peakS_apply, peakS_apply, highS_row]
  rfl

/-- The reshape [2048, 8192, 1] -> [2048, 8192] read at (r, s) is the argument at (r, s, 0): both sit at row-major
    position r * 8192 + s. -/
theorem reshape_apply {α : Type} (y : S2048x8192x1.Idx → α) (s : Fin 8192) :
    shapeCast S2048x8192 y shapeCasts_S2048x8192x1_S2048x8192 (ix2 r s) = y (ix3 r s (0 : Fin 1)) :=
  shapeCast_apply y shapeCasts_S2048x8192x1_S2048x8192 (ix2 r s) (ix3 r s (0 : Fin 1)) (by
    rw [Shape.rowMajor_val_three, Shape.rowMajor_val_two]
    show (r.val * 8192 + s.val) * 1 + 0 = r.val * 8192 + s.val
    omega)

end Assemble

/-- Row r of the per-row losses, at the ideal instance, is the reference's scalar spelling of the row loss of
    row r of the arguments. -/
theorem rowsS_apply (x0 x1 : C3f Ideal) (x2 : C3i Ideal) (r : Fin 2048) :
    rowsS (F := Ideal) (shapeCast _ x0 shapeCasts_S2048x8192x1_S2048x8192) (shapeCast _ x1 shapeCasts_S2048x8192x1_S2048x8192)
        (shapeCast _ x2 shapeCasts_S2048x8192x1_S2048x8192) (ix1 r)
      = PeakFlood.rowLossR (fun s => x0 (ix3 r s (0 : Fin 1))) (fun s => x1 (ix3 r s (0 : Fin 1))) (fun s => x2 (ix3 r s (0 : Fin 1))) := by
  rw [rowsS_row]
  simp only [reshape_apply]

/-- The mean over the rows is the shared one. -/
theorem meanS_eq (L : C1f Ideal) : meanS (F := Ideal) L = PeakFlood.meanAll L := rfl

end Cert.ReferenceIdeal.Stage

end
-- ==== Proof.RefRun.lean ====
/-
  The reference program's run, read back: every weakly fair execution of @main terminates with the result buffer at
  resultS of the three arguments (RefStages.lean) and the arguments unchanged. @main is a straight line of 120 host
  operations; the line is cut into stretches, each stretch's effect on the few buffers a later stretch reads is
  stated over an arbitrary valuation, and the stretches are joined.
-/
import proofs.«413434_j16612933501051_4_alg».proof.Proof.Gen.ReferenceIdeal
import proofs.«413434_j16612933501051_4_alg».proof.Proof.RefStages
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- @main's 120 operations, in order (a called function's operations stand in its call's place). -/
abbrev ops : List (HloOp τ sig (Elt F)) :=
  [ reshape main_arg0 main_v0 rfl shapeCasts_S2048x8192x1_S2048x8192,
    reshape main_arg1 main_v1 rfl shapeCasts_S2048x8192x1_S2048x8192,
    reshape main_arg2 main_v2 rfl shapeCasts_S2048x8192x1_S2048x8192,
    nullary main_c (constantI S_ 32 0#32),
    unary main_c main_v3 (broadcastInDim S2048x8192 ![] bcast_S_S2048x8192 : (⟨S_, .i32⟩ : BufTy).Contents (Elt F) → (⟨S2048x8192, .i32⟩ : BufTy).Contents (Elt F)),
    binary main_v2 main_v3 main_v4 (cmpi .ne : (⟨S2048x8192, .i32⟩ : BufTy).Contents (Elt F) → (⟨S2048x8192, .i32⟩ : BufTy).Contents (Elt F) → (⟨S2048x8192, .i1⟩ : BufTy).Contents (Elt F)),
    unary main_v4 main_v5 (id : (⟨S2048x8192, .i1⟩ : BufTy).Contents (Elt F) → (⟨S2048x8192, .i1⟩ : BufTy).Contents (Elt F)),
    binary main_v0 main_v0 main_v6 (cmpf .une : (⟨S2048x8192, .f32⟩ : BufTy).Contents (Elt F) → (⟨S2048x8192, .f32⟩ : BufTy).Contents (Elt F) → (⟨S2048x8192, .i1⟩ : BufTy).Contents (Elt F)),
    unary main_v6 main_v7 (noti : (⟨S2048x8192, .i1⟩ : BufTy).Contents (Elt F) → (⟨S2048x8192, .i1⟩ : BufTy).Contents (Elt F)),
    binary main_v5 main_v7 main_v8 (andi : (⟨S2048x8192, .i1⟩ : BufTy).Contents (Elt F) → (⟨S2048x8192, .i1⟩ : BufTy).Contents (Elt F) → (⟨S2048x8192, .i1⟩ : BufTy).Contents (Elt F)),
    binary main_v1 main_v1 main_v9 (cmpf .une : (⟨S2048x8192, .f32⟩ : BufTy).Contents (Elt F) → (⟨S2048x8192, .f32⟩ : BufTy).Contents (Elt F) → (⟨S2048x8192, .i1⟩ : BufTy).Contents (Elt F)),
    unary main_v9 main_v10 (noti : (⟨S2048x8192, .i1⟩ : BufTy).Contents (Elt F) → (⟨S2048x8192, .i1⟩ : BufTy).Contents (Elt F)),
    binary main_v8 main_v10 main_v11 (andi : (⟨S2048x8192, .i1⟩ : BufTy).Contents (Elt F) → (⟨S2048x8192, .i1⟩ : BufTy).Contents (Elt F) → (⟨S2048x8192, .i1⟩ : BufTy).Contents (Elt F)),
    unary main_v11 main_v12 ((extui 32 · natLt_1_32) : (⟨S2048x8192, .i1⟩ : BufTy).Contents (Elt F) → (⟨S2048x8192, .i32⟩ : BufTy).Contents (Elt F)),
    nullary main_c_0 (constantI S_ 32 0#32),
    binary main_v12 main_c_0 main_v13 ((fun x v => Host.reduce IntOp.addi x v reducesTo_S2048x8192_S2048_d1 h_S_) : (⟨S2048x8192, .i32⟩ : BufTy).Contents (Elt F) → (⟨S_, .i32⟩ : BufTy).Contents (Elt F) → (⟨S2048, .i32⟩ : BufTy).Contents (Elt F)),
    nullary main_c_1 (constantI S_ 32 0#32),
    unary main_c_1 main_v14 (broadcastInDim S2048 ![] bcast_S_S2048 : (⟨S_, .i32⟩ : BufTy).Contents (Elt F) → (⟨S2048, .i32⟩ : BufTy).Contents (Elt F)),
    binary main_v13 main_v14 main_v15 (cmpi .sgt : (⟨S2048, .i32⟩ : BufTy).Contents (Elt F) → (⟨S2048, .i32⟩ : BufTy).Contents (Elt F) → (⟨S2048, .i1⟩ : BufTy).Contents (Elt F)),
    binary main_v0 main_v1 main_v16 (subf : (⟨S2048x8192, .f32⟩ : BufTy).Contents (Elt F) → (⟨S2048x8192, .f32⟩ : BufTy).Contents (Elt F) → (⟨S2048x8192, .f32⟩ : BufTy).Contents (Elt F)),
    binary main_v16 main_v16 main_v17 (mulf : (⟨S2048x8192, .f32⟩ : BufTy).Contents (Elt F) → (⟨S2048x8192, .f32⟩ : BufTy).Contents (Elt F) → (⟨S2048x8192, .f32⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S2048x8192, .f32⟩) main_call0_v1) (broadcastInDim S2048x8192 ![] bcast_S_S2048x8192),
    TRef.ternary (TRef.of (T := ⟨S2048x8192, .i1⟩) main_v11) (TRef.of (T := ⟨S2048x8192, .f32⟩) main_v17) (TRef.of (T := ⟨S2048x8192, .f32⟩) main_call0_v1) (TRef.of (T := ⟨S2048x8192, .f32⟩) main_v18) select,
    nullary main_cst_2 (constant S_ .f32 0x00000000#32),
    binary main_v18 main_cst_2 main_v19 ((fun x v => Host.reduceAdd x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    nullary main_c_3 (constantI S_ 32 0#32),
    unary main_c_3 main_v20 (broadcastInDim S2048 ![] bcast_S_S2048 : (⟨S_, .i32⟩ : BufTy).Contents (Elt F) → (⟨S2048, .i32⟩ : BufTy).Contents (Elt F)),
    binary main_v13 main_v20 main_v21 (cmpi .sgt : (⟨S2048, .i32⟩ : BufTy).Contents (Elt F) → (⟨S2048, .i32⟩ : BufTy).Contents (Elt F) → (⟨S2048, .i1⟩ : BufTy).Contents (Elt F)),
    nullary main_c_4 (constantI S_ 32 1#32),
    unary main_c_4 main_v22 (broadcastInDim S2048 ![] bcast_S_S2048 : (⟨S_, .i32⟩ : BufTy).Contents (Elt F) → (⟨S2048, .i32⟩ : BufTy).Contents (Elt F)),
    binary main_v13 main_v22 main_v23 (maxsi : (⟨S2048, .i32⟩ : BufTy).Contents (Elt F) → (⟨S2048, .i32⟩ : BufTy).Contents (Elt F) → (⟨S2048, .i32⟩ : BufTy).Contents (Elt F)),
    unary main_v23 main_v24 (sitofp .f32 : (⟨S2048, .i32⟩ : BufTy).Contents (Elt F) → (⟨S2048, .f32⟩ : BufTy).Contents (Elt F)),
    binary main_v19 main_v24 main_v25 (Host.divf : (⟨S2048, .f32⟩ : BufTy).Contents (Elt F) → (⟨S2048, .f32⟩ : BufTy).Contents (Elt F) → (⟨S2048, .f32⟩ : BufTy).Contents (Elt F)),
    nullary main_cst_5 (constant S_ .f32 0x3F800000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S2048, .f32⟩) main_call1_v1) (broadcastInDim S2048 ![] bcast_S_S2048),
    TRef.ternary (TRef.of (T := ⟨S2048, .i1⟩) main_v21) (TRef.of (T := ⟨S2048, .f32⟩) main_v25) (TRef.of (T := ⟨S2048, .f32⟩) main_call1_v1) (TRef.of (T := ⟨S2048, .f32⟩) main_v26) select,
    unary main_v26 main_v27 (Host.sqrt : (⟨S2048, .f32⟩ : BufTy).Contents (Elt F) → (⟨S2048, .f32⟩ : BufTy).Contents (Elt F)),
    nullary main_cst_6 (constant S_ .f32 0x00000000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S2048, .f32⟩) main_call2_v1) (broadcastInDim S2048 ![] bcast_S_S2048),
    TRef.ternary (TRef.of (T := ⟨S2048, .i1⟩) main_v21) (TRef.of (T := ⟨S2048, .f32⟩) main_v27) (TRef.of (T := ⟨S2048, .f32⟩) main_call2_v1) (TRef.of (T := ⟨S2048, .f32⟩) main_v28) select,
    nullary main_cst_7 (constant S_ .f32 0xF149F2CA#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S2048x8192, .f32⟩) main_call3_v1) (broadcastInDim S2048x8192 ![] bcast_S_S2048x8192),
    TRef.ternary (TRef.of (T := ⟨S2048x8192, .i1⟩) main_v11) (TRef.of (T := ⟨S2048x8192, .f32⟩) main_v1) (TRef.of (T := ⟨S2048x8192, .f32⟩) main_call3_v1) (TRef.of (T := ⟨S2048x8192, .f32⟩) main_v29) select,
    nullary main_cst_8 (constant S_ .f32 0xFF800000#32),
    binary main_v29 main_cst_8 main_v30 ((fun x v => Host.reduce FloatOps.maximumf x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    nullary main_cst_9 (constant S_ .f32 0xF149F2CA#32),
    TRef.unary (TRef.of (T := ⟨S_, .f32⟩) main_cst_9) (TRef.of (T := ⟨S_, .f32⟩) main_call4_v0) id,
    TRef.unary (TRef.of (T := ⟨S_, .f32⟩) main_call4_v0) (TRef.of (T := ⟨S2048x8192, .f32⟩) main_call4_v1) (broadcastInDim S2048x8192 ![] bcast_S_S2048x8192),
    TRef.ternary (TRef.of (T := ⟨S2048x8192, .i1⟩) main_v11) (TRef.of (T := ⟨S2048x8192, .f32⟩) main_v0) (TRef.of (T := ⟨S2048x8192, .f32⟩) main_call4_v1) (TRef.of (T := ⟨S2048x8192, .f32⟩) main_v31) select,
    nullary main_cst_10 (constant S_ .f32 0xFF800000#32),
    binary main_v31 main_cst_10 main_v32 ((fun x v => Host.reduce FloatOps.maximumf x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    binary main_v32 main_v30 main_v33 (subf : (⟨S2048, .f32⟩ : BufTy).Contents (Elt F) → (⟨S2048, .f32⟩ : BufTy).Contents (Elt F) → (⟨S2048, .f32⟩ : BufTy).Contents (Elt F)),
    unary main_v33 main_v34 (Host.absf : (⟨S2048, .f32⟩ : BufTy).Contents (Elt F) → (⟨S2048, .f32⟩ : BufTy).Contents (Elt F)),
    nullary main_cst_11 (constant S_ .f32 0x00000000#32),
    TRef.unary (TRef.of (T := ⟨S_, .f32⟩) main_cst_11) (TRef.of (T := ⟨S_, .f32⟩) main_call5_v0) id,
    TRef.unary (TRef.of (T := ⟨S_, .f32⟩) main_call5_v0) (TRef.of (T := ⟨S2048, .f32⟩) main_call5_v1) (broadcastInDim S2048 ![] bcast_S_S2048),
    TRef.ternary (TRef.of (T := ⟨S2048, .i1⟩) main_v15) (TRef.of (T := ⟨S2048, .f32⟩) main_v34) (TRef.of (T := ⟨S2048, .f32⟩) main_call5_v1) (TRef.of (T := ⟨S2048, .f32⟩) main_v35) select,
    nullary main_cst_12 (constant S_ .f32 0x3F4CCCCD#32),
    unary main_cst_12 main_v36 (broadcastInDim S2048 ![] bcast_S_S2048 : (⟨S_, .f32⟩ : BufTy).Contents (Elt F) → (⟨S2048, .f32⟩ : BufTy).Contents (Elt F)),
    binary main_v30 main_v36 main_v37 (mulf : (⟨S2048, .f32⟩ : BufTy).Contents (Elt F) → (⟨S2048, .f32⟩ : BufTy).Contents (Elt F) → (⟨S2048, .f32⟩ : BufTy).Contents (Elt F)),
    nullary main_cst_13 (constant S_ .f32 0x00000000#32),
    unary main_cst_13 main_v38 (broadcastInDim S2048 ![] bcast_S_S2048 : (⟨S_, .f32⟩ : BufTy).Contents (Elt F) → (⟨S2048, .f32⟩ : BufTy).Contents (Elt F)),
    binary main_v30 main_v38 main_v39 (cmpf .ole : (⟨S2048, .f32⟩ : BufTy).Contents (Elt F) → (⟨S2048, .f32⟩ : BufTy).Contents (Elt F) → (⟨S2048, .i1⟩ : BufTy).Contents (Elt F)),
    unary main_v39 main_v40 (broadcastInDim S2048x1 ![0] bcast_S2048_S2048x1_0 : (⟨S2048, .i1⟩ : BufTy).Contents (Elt F) → (⟨S2048x1, .i1⟩ : BufTy).Contents (Elt F)),
    unary main_v37 main_v41 (broadcastInDim S2048x1 ![0] bcast_S2048_S2048x1_0 : (⟨S2048, .f32⟩ : BufTy).Contents (Elt F) → (⟨S2048x1, .f32⟩ : BufTy).Contents (Elt F)),
    unary main_v41 main_v42 (broadcastInDim S2048x8192 ![0, 1] bcast_S2048x1_S2048x8192_0_1 : (⟨S2048x1, .f32⟩ : BufTy).Contents (Elt F) → (⟨S2048x8192, .f32⟩ : BufTy).Contents (Elt F)),
    binary main_v1 main_v42 main_v43 (cmpf .oge : (⟨S2048x8192, .f32⟩ : BufTy).Contents (Elt F) → (⟨S2048x8192, .f32⟩ : BufTy).Contents (Elt F) → (⟨S2048x8192, .i1⟩ : BufTy).Contents (Elt F)),
    nullary main_c_14 (constantI S_ 1 1#1),
    TRef.unary (TRef.of (T := ⟨S2048x1, .i1⟩) main_v40) (TRef.of (T := ⟨S2048x8192, .i1⟩) main_call6_v0) (broadcastInDim S2048x8192 ![0, 1] bcast_S2048x1_S2048x8192_0_1),
    TRef.unary (TRef.of (T := ⟨S_, .i1⟩) main_c_14) (TRef.of (T := ⟨S2048x8192, .i1⟩) main_call6_v1) (broadcastInDim S2048x8192 ![] bcast_S_S2048x8192),
    TRef.ternary (TRef.of (T := ⟨S2048x8192, .i1⟩) main_call6_v0) (TRef.of (T := ⟨S2048x8192, .i1⟩) main_call6_v1) (TRef.of (T := ⟨S2048x8192, .i1⟩) main_v43) (TRef.of (T := ⟨S2048x8192, .i1⟩) main_v44) select,
    binary main_v11 main_v44 main_v45 (andi : (⟨S2048x8192, .i1⟩ : BufTy).Contents (Elt F) → (⟨S2048x8192, .i1⟩ : BufTy).Contents (Elt F) → (⟨S2048x8192, .i1⟩ : BufTy).Contents (Elt F)),
    unary main_v45 main_v46 ((extui 32 · natLt_1_32) : (⟨S2048x8192, .i1⟩ : BufTy).Contents (Elt F) → (⟨S2048x8192, .i32⟩ : BufTy).Contents (Elt F)),
    nullary main_c_15 (constantI S_ 32 0#32),
    binary main_v46 main_c_15 main_v47 ((fun x v => Host.reduce IntOp.addi x v reducesTo_S2048x8192_S2048_d1 h_S_) : (⟨S2048x8192, .i32⟩ : BufTy).Contents (Elt F) → (⟨S_, .i32⟩ : BufTy).Contents (Elt F) → (⟨S2048, .i32⟩ : BufTy).Contents (Elt F)),
    binary main_v0 main_v1 main_v48 (subf : (⟨S2048x8192, .f32⟩ : BufTy).Contents (Elt F) → (⟨S2048x8192, .f32⟩ : BufTy).Contents (Elt F) → (⟨S2048x8192, .f32⟩ : BufTy).Contents (Elt F)),
    binary main_v48 main_v48 main_v49 (mulf : (⟨S2048x8192, .f32⟩ : BufTy).Contents (Elt F) → (⟨S2048x8192, .f32⟩ : BufTy).Contents (Elt F) → (⟨S2048x8192, .f32⟩ : BufTy).Contents (Elt F)),
    nullary main_cst_16 (constant S_ .f32 0x00000000#32),
    TRef.unary (TRef.of (T := ⟨S_, .f32⟩) main_cst_16) (TRef.of (T := ⟨S_, .f32⟩) main_call7_v0) id,
    TRef.unary (TRef.of (T := ⟨S_, .f32⟩) main_call7_v0) (TRef.of (T := ⟨S2048x8192, .f32⟩) main_call7_v1) (broadcastInDim S2048x8192 ![] bcast_S_S2048x8192),
    TRef.ternary (TRef.of (T := ⟨S2048x8192, .i1⟩) main_v45) (TRef.of (T := ⟨S2048x8192, .f32⟩) main_v49) (TRef.of (T := ⟨S2048x8192, .f32⟩) main_call7_v1) (TRef.of (T := ⟨S2048x8192, .f32⟩) main_v50) select,
    nullary main_cst_17 (constant S_ .f32 0x00000000#32),
    binary main_v50 main_cst_17 main_v51 ((fun x v => Host.reduceAdd x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    nullary main_c_18 (constantI S_ 32 0#32),
    unary main_c_18 main_v52 (broadcastInDim S2048 ![] bcast_S_S2048 : (⟨S_, .i32⟩ : BufTy).Contents (Elt F) → (⟨S2048, .i32⟩ : BufTy).Contents (Elt F)),
    binary main_v47 main_v52 main_v53 (cmpi .sgt : (⟨S2048, .i32⟩ : BufTy).Contents (Elt F) → (⟨S2048, .i32⟩ : BufTy).Contents (Elt F) → (⟨S2048, .i1⟩ : BufTy).Contents (Elt F)),
    nullary main_c_19 (constantI S_ 32 1#32),
    unary main_c_19 main_v54 (broadcastInDim S2048 ![] bcast_S_S2048 : (⟨S_, .i32⟩ : BufTy).Contents (Elt F) → (⟨S2048, .i32⟩ : BufTy).Contents (Elt F)),
    binary main_v47 main_v54 main_v55 (maxsi : (⟨S2048, .i32⟩ : BufTy).Contents (Elt F) → (⟨S2048, .i32⟩ : BufTy).Contents (Elt F) → (⟨S2048, .i32⟩ : BufTy).Contents (Elt F)),
    unary main_v55 main_v56 (sitofp .f32 : (⟨S2048, .i32⟩ : BufTy).Contents (Elt F) → (⟨S2048, .f32⟩ : BufTy).Contents (Elt F)),
    binary main_v51 main_v56 main_v57 (Host.divf : (⟨S2048, .f32⟩ : BufTy).Contents (Elt F) → (⟨S2048, .f32⟩ : BufTy).Contents (Elt F) → (⟨S2048, .f32⟩ : BufTy).Contents (Elt F)),
    nullary main_cst_20 (constant S_ .f32 0x3F800000#32),
    TRef.unary (TRef.of (T := ⟨S_, .f32⟩) main_cst_20) (TRef.of (T := ⟨S_, .f32⟩) main_call8_v0) id,
    TRef.unary (TRef.of (T := ⟨S_, .f32⟩) main_call8_v0) (TRef.of (T := ⟨S2048, .f32⟩) main_call8_v1) (broadcastInDim S2048 ![] bcast_S_S2048),
    TRef.ternary (TRef.of (T := ⟨S2048, .i1⟩) main_v53) (TRef.of (T := ⟨S2048, .f32⟩) main_v57) (TRef.of (T := ⟨S2048, .f32⟩) main_call8_v1) (TRef.of (T := ⟨S2048, .f32⟩) main_v58) select,
    unary main_v58 main_v59 (Host.sqrt : (⟨S2048, .f32⟩ : BufTy).Contents (Elt F) → (⟨S2048, .f32⟩ : BufTy).Contents (Elt F)),
    nullary main_cst_21 (constant S_ .f32 0x00000000#32),
    TRef.unary (TRef.of (T := ⟨S_, .f32⟩) main_cst_21) (TRef.of (T := ⟨S_, .f32⟩) main_call9_v0) id,
    TRef.unary (TRef.of (T := ⟨S_, .f32⟩) main_call9_v0) (TRef.of (T := ⟨S2048, .f32⟩) main_call9_v1) (broadcastInDim S2048 ![] bcast_S_S2048),
    TRef.ternary (TRef.of (T := ⟨S2048, .i1⟩) main_v53) (TRef.of (T := ⟨S2048, .f32⟩) main_v59) (TRef.of (T := ⟨S2048, .f32⟩) main_call9_v1) (TRef.of (T := ⟨S2048, .f32⟩) main_v60) select,
    nullary main_cst_22 (constant S_ .f32 0x3F000000#32),
    unary main_cst_22 main_v61 (broadcastInDim S2048 ![] bcast_S_S2048 : (⟨S_, .f32⟩ : BufTy).Contents (Elt F) → (⟨S2048, .f32⟩ : BufTy).Contents (Elt F)),
    binary main_v61 main_v28 main_v62 (mulf : (⟨S2048, .f32⟩ : BufTy).Contents (Elt F) → (⟨S2048, .f32⟩ : BufTy).Contents (Elt F) → (⟨S2048, .f32⟩ : BufTy).Contents (Elt F)),
    nullary main_cst_23 (constant S_ .f32 0x40000000#32),
    unary main_cst_23 main_v63 (broadcastInDim S2048 ![] bcast_S_S2048 : (⟨S_, .f32⟩ : BufTy).Contents (Elt F) → (⟨S2048, .f32⟩ : BufTy).Contents (Elt F)),
    binary main_v63 main_v35 main_v64 (mulf : (⟨S2048, .f32⟩ : BufTy).Contents (Elt F) → (⟨S2048, .f32⟩ : BufTy).Contents (Elt F) → (⟨S2048, .f32⟩ : BufTy).Contents (Elt F)),
    binary main_v62 main_v64 main_v65 (addf : (⟨S2048, .f32⟩ : BufTy).Contents (Elt F) → (⟨S2048, .f32⟩ : BufTy).Contents (Elt F) → (⟨S2048, .f32⟩ : BufTy).Contents (Elt F)),
    nullary main_cst_24 (constant S_ .f32 0x3F800000#32),
    unary main_cst_24 main_v66 (broadcastInDim S2048 ![] bcast_S_S2048 : (⟨S_, .f32⟩ : BufTy).Contents (Elt F) → (⟨S2048, .f32⟩ : BufTy).Contents (Elt F)),
    binary main_v66 main_v60 main_v67 (mulf : (⟨S2048, .f32⟩ : BufTy).Contents (Elt F) → (⟨S2048, .f32⟩ : BufTy).Contents (Elt F) → (⟨S2048, .f32⟩ : BufTy).Contents (Elt F)),
    binary main_v65 main_v67 main_v68 (addf : (⟨S2048, .f32⟩ : BufTy).Contents (Elt F) → (⟨S2048, .f32⟩ : BufTy).Contents (Elt F) → (⟨S2048, .f32⟩ : BufTy).Contents (Elt F)),
    nullary main_cst_25 (constant S_ .f32 0x00000000#32),
    binary main_v68 main_cst_25 main_v69 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_26 (constant S_ .f32 0x45000000#32),
    binary main_v69 main_cst_26 main_v70 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., reshape_bufs_sub .., nullary_bufs_sub .., unary_bufs_sub .., binary_bufs_sub .., unary_bufs_sub .., binary_bufs_sub .., unary_bufs_sub .., binary_bufs_sub .., binary_bufs_sub .., unary_bufs_sub .., binary_bufs_sub .., unary_bufs_sub .., nullary_bufs_sub .., binary_bufs_sub .., nullary_bufs_sub .., unary_bufs_sub .., binary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., binary_bufs_sub .., unary_bufs_sub .., nullary_bufs_sub .., binary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., binary_bufs_sub .., nullary_bufs_sub .., binary_bufs_sub ..⟩

/-! ## The stretches -/

/-- The first stretch: the three arguments reshaped to [2048, 8192] and the valid mask. -/
abbrev c1 : List (HloOp τ sig (Elt F)) :=
  [ reshape main_arg0 main_v0 rfl shapeCasts_S2048x8192x1_S2048x8192,
    reshape main_arg1 main_v1 rfl shapeCasts_S2048x8192x1_S2048x8192,
    reshape main_arg2 main_v2 rfl shapeCasts_S2048x8192x1_S2048x8192,
    nullary main_c (constantI S_ 32 0#32),
    unary main_c main_v3 (broadcastInDim S2048x8192 ![] bcast_S_S2048x8192 : (⟨S_, .i32⟩ : BufTy).Contents (Elt F) → (⟨S2048x8192, .i32⟩ : BufTy).Contents (Elt F)),
    binary main_v2 main_v3 main_v4 (cmpi .ne : (⟨S2048x8192, .i32⟩ : BufTy).Contents (Elt F) → (⟨S2048x8192, .i32⟩ : BufTy).Contents (Elt F) → (⟨S2048x8192, .i1⟩ : BufTy).Contents (Elt F)),
    unary main_v4 main_v5 (id : (⟨S2048x8192, .i1⟩ : BufTy).Contents (Elt F) → (⟨S2048x8192, .i1⟩ : BufTy).Contents (Elt F)),
    binary main_v0 main_v0 main_v6 (cmpf .une : (⟨S2048x8192, .f32⟩ : BufTy).Contents (Elt F) → (⟨S2048x8192, .f32⟩ : BufTy).Contents (Elt F) → (⟨S2048x8192, .i1⟩ : BufTy).Contents (Elt F)),
    unary main_v6 main_v7 (noti : (⟨S2048x8192, .i1⟩ : BufTy).Contents (Elt F) → (⟨S2048x8192, .i1⟩ : BufTy).Contents (Elt F)),
    binary main_v5 main_v7 main_v8 (andi : (⟨S2048x8192, .i1⟩ : BufTy).Contents (Elt F) → (⟨S2048x8192, .i1⟩ : BufTy).Contents (Elt F) → (⟨S2048x8192, .i1⟩ : BufTy).Contents (Elt F)),
    binary main_v1 main_v1 main_v9 (cmpf .une : (⟨S2048x8192, .f32⟩ : BufTy).Contents (Elt F) → (⟨S2048x8192, .f32⟩ : BufTy).Contents (Elt F) → (⟨S2048x8192, .i1⟩ : BufTy).Contents (Elt F)),
    unary main_v9 main_v10 (noti : (⟨S2048x8192, .i1⟩ : BufTy).Contents (Elt F) → (⟨S2048x8192, .i1⟩ : BufTy).Contents (Elt F)),
    binary main_v8 main_v10 main_v11 (andi : (⟨S2048x8192, .i1⟩ : BufTy).Contents (Elt F) → (⟨S2048x8192, .i1⟩ : BufTy).Contents (Elt F) → (⟨S2048x8192, .i1⟩ : BufTy).Contents (Elt F)) ]

/-- The second stretch: each row's count of valid entries, whether it is positive, the squared errors, their masked row sum
    and the first guarded root mean. The operations of a called function (an element-wise choice against a broadcast scalar) stand at the call, each stated
    at its buffers' own types. -/
abbrev c2 : List (HloOp τ sig (Elt F)) :=
  [ unary main_v11 main_v12 ((extui 32 · natLt_1_32) : (⟨S2048x8192, .i1⟩ : BufTy).Contents (Elt F) → (⟨S2048x8192, .i32⟩ : BufTy).Contents (Elt F)),
    nullary main_c_0 (constantI S_ 32 0#32),
    binary main_v12 main_c_0 main_v13 ((fun x v => Host.reduce IntOp.addi x v reducesTo_S2048x8192_S2048_d1 h_S_) : (⟨S2048x8192, .i32⟩ : BufTy).Contents (Elt F) → (⟨S_, .i32⟩ : BufTy).Contents (Elt F) → (⟨S2048, .i32⟩ : BufTy).Contents (Elt F)),
    nullary main_c_1 (constantI S_ 32 0#32),
    unary main_c_1 main_v14 (broadcastInDim S2048 ![] bcast_S_S2048 : (⟨S_, .i32⟩ : BufTy).Contents (Elt F) → (⟨S2048, .i32⟩ : BufTy).Contents (Elt F)),
    binary main_v13 main_v14 main_v15 (cmpi .sgt : (⟨S2048, .i32⟩ : BufTy).Contents (Elt F) → (⟨S2048, .i32⟩ : BufTy).Contents (Elt F) → (⟨S2048, .i1⟩ : BufTy).Contents (Elt F)),
    binary main_v0 main_v1 main_v16 (subf : (⟨S2048x8192, .f32⟩ : BufTy).Contents (Elt F) → (⟨S2048x8192, .f32⟩ : BufTy).Contents (Elt F) → (⟨S2048x8192, .f32⟩ : BufTy).Contents (Elt F)),
    binary main_v16 main_v16 main_v17 (mulf : (⟨S2048x8192, .f32⟩ : BufTy).Contents (Elt F) → (⟨S2048x8192, .f32⟩ : BufTy).Contents (Elt F) → (⟨S2048x8192, .f32⟩ : BufTy).Contents (Elt F)),
    nullary main_cst (constant S_ .f32 0x00000000#32),
    unary main_cst main_call0_v0 (id : (⟨S_, .f32⟩ : BufTy).Contents (Elt F) → (⟨S_, .f32⟩ : BufTy).Contents (Elt F)),
    unary main_call0_v0 main_call0_v1 (broadcastInDim S2048x8192 ![] bcast_S_S2048x8192 : (⟨S_, .f32⟩ : BufTy).Contents (Elt F) → (⟨S2048x8192, .f32⟩ : BufTy).Contents (Elt F)),
    ternary main_v11 main_v17 main_call0_v1 main_v18 (select : (⟨S2048x8192, .i1⟩ : BufTy).Contents (Elt F) → (⟨S2048x8192, .f32⟩ : BufTy).Contents (Elt F) → (⟨S2048x8192, .f32⟩ : BufTy).Contents (Elt F) → (⟨S2048x8192, .f32⟩ : BufTy).Contents (Elt F)),
    nullary main_cst_2 (constant S_ .f32 0x00000000#32),
    binary main_v18 main_cst_2 main_v19 ((fun x v => Host.reduceAdd x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    nullary main_c_3 (constantI S_ 32 0#32),
    unary main_c_3 main_v20 (broadcastInDim S2048 ![] bcast_S_S2048 : (⟨S_, .i32⟩ : BufTy).Contents (Elt F) → (⟨S2048, .i32⟩ : BufTy).Contents (Elt F)),
    binary main_v13 main_v20 main_v21 (cmpi .sgt : (⟨S2048, .i32⟩ : BufTy).Contents (Elt F) → (⟨S2048, .i32⟩ : BufTy).Contents (Elt F) → (⟨S2048, .i1⟩ : BufTy).Contents (Elt F)),
    nullary main_c_4 (constantI S_ 32 1#32),
    unary main_c_4 main_v22 (broadcastInDim S2048 ![] bcast_S_S2048 : (⟨S_, .i32⟩ : BufTy).Contents (Elt F) → (⟨S2048, .i32⟩ : BufTy).Contents (Elt F)),
    binary main_v13 main_v22 main_v23 (maxsi : (⟨S2048, .i32⟩ : BufTy).Contents (Elt F) → (⟨S2048, .i32⟩ : BufTy).Contents (Elt F) → (⟨S2048, .i32⟩ : BufTy).Contents (Elt F)),
    unary main_v23 main_v24 (sitofp .f32 : (⟨S2048, .i32⟩ : BufTy).Contents (Elt F) → (⟨S2048, .f32⟩ : BufTy).Contents (Elt F)),
    binary main_v19 main_v24 main_v25 (Host.divf : (⟨S2048, .f32⟩ : BufTy).Contents (Elt F) → (⟨S2048, .f32⟩ : BufTy).Contents (Elt F) → (⟨S2048, .f32⟩ : BufTy).Contents (Elt F)),
    nullary main_cst_5 (constant S_ .f32 0x3F800000#32),
    unary main_cst_5 main_call1_v0 (id : (⟨S_, .f32⟩ : BufTy).Contents (Elt F) → (⟨S_, .f32⟩ : BufTy).Contents (Elt F)),
    unary main_call1_v0 main_call1_v1 (broadcastInDim S2048 ![] bcast_S_S2048 : (⟨S_, .f32⟩ : BufTy).Contents (Elt F) → (⟨S2048, .f32⟩ : BufTy).Contents (Elt F)),
    ternary main_v21 main_v25 main_call1_v1 main_v26 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)),
    unary main_v26 main_v27 (Host.sqrt : (⟨S2048, .f32⟩ : BufTy).Contents (Elt F) → (⟨S2048, .f32⟩ : BufTy).Contents (Elt F)),
    nullary main_cst_6 (constant S_ .f32 0x00000000#32),
    unary main_cst_6 main_call2_v0 (id : (⟨S_, .f32⟩ : BufTy).Contents (Elt F) → (⟨S_, .f32⟩ : BufTy).Contents (Elt F)),
    unary main_call2_v0 main_call2_v1 (broadcastInDim S2048 ![] bcast_S_S2048 : (⟨S_, .f32⟩ : BufTy).Contents (Elt F) → (⟨S2048, .f32⟩ : BufTy).Contents (Elt F)),
    ternary main_v21 main_v27 main_call2_v1 main_v28 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)) ]

/-- The third stretch: the two masked row maxima and the peak error. -/
abbrev c3 : List (HloOp τ sig (Elt F)) :=
  [ nullary main_cst_7 (constant S_ .f32 0xF149F2CA#32),
    unary main_cst_7 main_call3_v0 (id : (⟨S_, .f32⟩ : BufTy).Contents (Elt F) → (⟨S_, .f32⟩ : BufTy).Contents (Elt F)),
    unary main_call3_v0 main_call3_v1 (broadcastInDim S2048x8192 ![] bcast_S_S2048x8192 : (⟨S_, .f32⟩ : BufTy).Contents (Elt F) → (⟨S2048x8192, .f32⟩ : BufTy).Contents (Elt F)),
    ternary main_v11 main_v1 main_call3_v1 main_v29 (select : (⟨S2048x8192, .i1⟩ : BufTy).Contents (Elt F) → (⟨S2048x8192, .f32⟩ : BufTy).Contents (Elt F) → (⟨S2048x8192, .f32⟩ : BufTy).Contents (Elt F) → (⟨S2048x8192, .f32⟩ : BufTy).Contents (Elt F)),
    nullary main_cst_8 (constant S_ .f32 0xFF800000#32),
    binary main_v29 main_cst_8 main_v30 ((fun x v => Host.reduce FloatOps.maximumf x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    nullary main_cst_9 (constant S_ .f32 0xF149F2CA#32),
    unary main_cst_9 main_call4_v0 (id : (⟨S_, .f32⟩ : BufTy).Contents (Elt F) → (⟨S_, .f32⟩ : BufTy).Contents (Elt F)),
    unary main_call4_v0 main_call4_v1 (broadcastInDim S2048x8192 ![] bcast_S_S2048x8192 : (⟨S_, .f32⟩ : BufTy).Contents (Elt F) → (⟨S2048x8192, .f32⟩ : BufTy).Contents (Elt F)),
    ternary main_v11 main_v0 main_call4_v1 main_v31 (select : (⟨S2048x8192, .i1⟩ : BufTy).Contents (Elt F) → (⟨S2048x8192, .f32⟩ : BufTy).Contents (Elt F) → (⟨S2048x8192, .f32⟩ : BufTy).Contents (Elt F) → (⟨S2048x8192, .f32⟩ : BufTy).Contents (Elt F)),
    nullary main_cst_10 (constant S_ .f32 0xFF800000#32),
    binary main_v31 main_cst_10 main_v32 ((fun x v => Host.reduce FloatOps.maximumf x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    binary main_v32 main_v30 main_v33 (subf : (⟨S2048, .f32⟩ : BufTy).Contents (Elt F) → (⟨S2048, .f32⟩ : BufTy).Contents (Elt F) → (⟨S2048, .f32⟩ : BufTy).Contents (Elt F)),
    unary main_v33 main_v34 (Host.absf : (⟨S2048, .f32⟩ : BufTy).Contents (Elt F) → (⟨S2048, .f32⟩ : BufTy).Contents (Elt F)),
    nullary main_cst_11 (constant S_ .f32 0x00000000#32),
    unary main_cst_11 main_call5_v0 (id : (⟨S_, .f32⟩ : BufTy).Contents (Elt F) → (⟨S_, .f32⟩ : BufTy).Contents (Elt F)),
    unary main_call5_v0 main_call5_v1 (broadcastInDim S2048 ![] bcast_S_S2048 : (⟨S_, .f32⟩ : BufTy).Contents (Elt F) → (⟨S2048, .f32⟩ : BufTy).Contents (Elt F)),
    ternary main_v15 main_v34 main_call5_v1 main_v35 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)) ]

/-- The fourth stretch: the threshold, the high-value mask and its row count. -/
abbrev c4 : List (HloOp τ sig (Elt F)) :=
  [ nullary main_cst_12 (constant S_ .f32 0x3F4CCCCD#32),
    unary main_cst_12 main_v36 (broadcastInDim S2048 ![] bcast_S_S2048 : (⟨S_, .f32⟩ : BufTy).Contents (Elt F) → (⟨S2048, .f32⟩ : BufTy).Contents (Elt F)),
    binary main_v30 main_v36 main_v37 (mulf : (⟨S2048, .f32⟩ : BufTy).Contents (Elt F) → (⟨S2048, .f32⟩ : BufTy).Contents (Elt F) → (⟨S2048, .f32⟩ : BufTy).Contents (Elt F)),
    nullary main_cst_13 (constant S_ .f32 0x00000000#32),
    unary main_cst_13 main_v38 (broadcastInDim S2048 ![] bcast_S_S2048 : (⟨S_, .f32⟩ : BufTy).Contents (Elt F) → (⟨S2048, .f32⟩ : BufTy).Contents (Elt F)),
    binary main_v30 main_v38 main_v39 (cmpf .ole : (⟨S2048, .f32⟩ : BufTy).Contents (Elt F) → (⟨S2048, .f32⟩ : BufTy).Contents (Elt F) → (⟨S2048, .i1⟩ : BufTy).Contents (Elt F)),
    unary main_v39 main_v40 (broadcastInDim S2048x1 ![0] bcast_S2048_S2048x1_0 : (⟨S2048, .i1⟩ : BufTy).Contents (Elt F) → (⟨S2048x1, .i1⟩ : BufTy).Contents (Elt F)),
    unary main_v37 main_v41 (broadcastInDim S2048x1 ![0] bcast_S2048_S2048x1_0 : (⟨S2048, .f32⟩ : BufTy).Contents (Elt F) → (⟨S2048x1, .f32⟩ : BufTy).Contents (Elt F)),
    unary main_v41 main_v42 (broadcastInDim S2048x8192 ![0, 1] bcast_S2048x1_S2048x8192_0_1 : (⟨S2048x1, .f32⟩ : BufTy).Contents (Elt F) → (⟨S2048x8192, .f32⟩ : BufTy).Contents (Elt F)),
    binary main_v1 main_v42 main_v43 (cmpf .oge : (⟨S2048x8192, .f32⟩ : BufTy).Contents (Elt F) → (⟨S2048x8192, .f32⟩ : BufTy).Contents (Elt F) → (⟨S2048x8192, .i1⟩ : BufTy).Contents (Elt F)),
    nullary main_c_14 (constantI S_ 1 1#1),
    unary main_v40 main_call6_v0 (broadcastInDim S2048x8192 ![0, 1] bcast_S2048x1_S2048x8192_0_1 : (⟨S2048x1, .i1⟩ : BufTy).Contents (Elt F) → (⟨S2048x8192, .i1⟩ : BufTy).Contents (Elt F)),
    unary main_c_14 main_call6_v1 (broadcastInDim S2048x8192 ![] bcast_S_S2048x8192 : (⟨S_, .i1⟩ : BufTy).Contents (Elt F) → (⟨S2048x8192, .i1⟩ : BufTy).Contents (Elt F)),
    ternary main_call6_v0 main_call6_v1 main_v43 main_v44 (select : (⟨S2048x8192, .i1⟩ : BufTy).Contents (Elt F) → (⟨S2048x8192, .i1⟩ : BufTy).Contents (Elt F) → (⟨S2048x8192, .i1⟩ : BufTy).Contents (Elt F) → (⟨S2048x8192, .i1⟩ : BufTy).Contents (Elt F)),
    binary main_v11 main_v44 main_v45 (andi : (⟨S2048x8192, .i1⟩ : BufTy).Contents (Elt F) → (⟨S2048x8192, .i1⟩ : BufTy).Contents (Elt F) → (⟨S2048x8192, .i1⟩ : BufTy).Contents (Elt F)),
    unary main_v45 main_v46 ((extui 32 · natLt_1_32) : (⟨S2048x8192, .i1⟩ : BufTy).Contents (Elt F) → (⟨S2048x8192, .i32⟩ : BufTy).Contents (Elt F)),
    nullary main_c_15 (constantI S_ 32 0#32),
    binary main_v46 main_c_15 main_v47 ((fun x v => Host.reduce IntOp.addi x v reducesTo_S2048x8192_S2048_d1 h_S_) : (⟨S2048x8192, .i32⟩ : BufTy).Contents (Elt F) → (⟨S_, .i32⟩ : BufTy).Contents (Elt F) → (⟨S2048, .i32⟩ : BufTy).Contents (Elt F)) ]

/-- The fifth stretch: the squared errors again, their row sum over the high-value mask and the second guarded root mean. -/
abbrev c5 : List (HloOp τ sig (Elt F)) :=
  [ binary main_v0 main_v1 main_v48 (subf : (⟨S2048x8192, .f32⟩ : BufTy).Contents (Elt F) → (⟨S2048x8192, .f32⟩ : BufTy).Contents (Elt F) → (⟨S2048x8192, .f32⟩ : BufTy).Contents (Elt F)),
    binary main_v48 main_v48 main_v49 (mulf : (⟨S2048x8192, .f32⟩ : BufTy).Contents (Elt F) → (⟨S2048x8192, .f32⟩ : BufTy).Contents (Elt F) → (⟨S2048x8192, .f32⟩ : BufTy).Contents (Elt F)),
    nullary main_cst_16 (constant S_ .f32 0x00000000#32),
    unary main_cst_16 main_call7_v0 (id : (⟨S_, .f32⟩ : BufTy).Contents (Elt F) → (⟨S_, .f32⟩ : BufTy).Contents (Elt F)),
    unary main_call7_v0 main_call7_v1 (broadcastInDim S2048x8192 ![] bcast_S_S2048x8192 : (⟨S_, .f32⟩ : BufTy).Contents (Elt F) → (⟨S2048x8192, .f32⟩ : BufTy).Contents (Elt F)),
    ternary main_v45 main_v49 main_call7_v1 main_v50 (select : (⟨S2048x8192, .i1⟩ : BufTy).Contents (Elt F) → (⟨S2048x8192, .f32⟩ : BufTy).Contents (Elt F) → (⟨S2048x8192, .f32⟩ : BufTy).Contents (Elt F) → (⟨S2048x8192, .f32⟩ : BufTy).Contents (Elt F)),
    nullary main_cst_17 (constant S_ .f32 0x00000000#32),
    binary main_v50 main_cst_17 main_v51 ((fun x v => Host.reduceAdd x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    nullary main_c_18 (constantI S_ 32 0#32),
    unary main_c_18 main_v52 (broadcastInDim S2048 ![] bcast_S_S2048 : (⟨S_, .i32⟩ : BufTy).Contents (Elt F) → (⟨S2048, .i32⟩ : BufTy).Contents (Elt F)),
    binary main_v47 main_v52 main_v53 (cmpi .sgt : (⟨S2048, .i32⟩ : BufTy).Contents (Elt F) → (⟨S2048, .i32⟩ : BufTy).Contents (Elt F) → (⟨S2048, .i1⟩ : BufTy).Contents (Elt F)),
    nullary main_c_19 (constantI S_ 32 1#32),
    unary main_c_19 main_v54 (broadcastInDim S2048 ![] bcast_S_S2048 : (⟨S_, .i32⟩ : BufTy).Contents (Elt F) → (⟨S2048, .i32⟩ : BufTy).Contents (Elt F)),
    binary main_v47 main_v54 main_v55 (maxsi : (⟨S2048, .i32⟩ : BufTy).Contents (Elt F) → (⟨S2048, .i32⟩ : BufTy).Contents (Elt F) → (⟨S2048, .i32⟩ : BufTy).Contents (Elt F)),
    unary main_v55 main_v56 (sitofp .f32 : (⟨S2048, .i32⟩ : BufTy).Contents (Elt F) → (⟨S2048, .f32⟩ : BufTy).Contents (Elt F)),
    binary main_v51 main_v56 main_v57 (Host.divf : (⟨S2048, .f32⟩ : BufTy).Contents (Elt F) → (⟨S2048, .f32⟩ : BufTy).Contents (Elt F) → (⟨S2048, .f32⟩ : BufTy).Contents (Elt F)),
    nullary main_cst_20 (constant S_ .f32 0x3F800000#32),
    unary main_cst_20 main_call8_v0 (id : (⟨S_, .f32⟩ : BufTy).Contents (Elt F) → (⟨S_, .f32⟩ : BufTy).Contents (Elt F)),
    unary main_call8_v0 main_call8_v1 (broadcastInDim S2048 ![] bcast_S_S2048 : (⟨S_, .f32⟩ : BufTy).Contents (Elt F) → (⟨S2048, .f32⟩ : BufTy).Contents (Elt F)),
    ternary main_v53 main_v57 main_call8_v1 main_v58 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)),
    unary main_v58 main_v59 (Host.sqrt : (⟨S2048, .f32⟩ : BufTy).Contents (Elt F) → (⟨S2048, .f32⟩ : BufTy).Contents (Elt F)),
    nullary main_cst_21 (constant S_ .f32 0x00000000#32),
    unary main_cst_21 main_call9_v0 (id : (⟨S_, .f32⟩ : BufTy).Contents (Elt F) → (⟨S_, .f32⟩ : BufTy).Contents (Elt F)),
    unary main_call9_v0 main_call9_v1 (broadcastInDim S2048 ![] bcast_S_S2048 : (⟨S_, .f32⟩ : BufTy).Contents (Elt F) → (⟨S2048, .f32⟩ : BufTy).Contents (Elt F)),
    ternary main_v53 main_v59 main_call9_v1 main_v60 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)) ]

/-- The sixth stretch: the weighted sum of the three per-row terms and its mean over the rows. -/
abbrev c6 : List (HloOp τ sig (Elt F)) :=
  [ nullary main_cst_22 (constant S_ .f32 0x3F000000#32),
    unary main_cst_22 main_v61 (broadcastInDim S2048 ![] bcast_S_S2048 : (⟨S_, .f32⟩ : BufTy).Contents (Elt F) → (⟨S2048, .f32⟩ : BufTy).Contents (Elt F)),
    binary main_v61 main_v28 main_v62 (mulf : (⟨S2048, .f32⟩ : BufTy).Contents (Elt F) → (⟨S2048, .f32⟩ : BufTy).Contents (Elt F) → (⟨S2048, .f32⟩ : BufTy).Contents (Elt F)),
    nullary main_cst_23 (constant S_ .f32 0x40000000#32),
    unary main_cst_23 main_v63 (broadcastInDim S2048 ![] bcast_S_S2048 : (⟨S_, .f32⟩ : BufTy).Contents (Elt F) → (⟨S2048, .f32⟩ : BufTy).Contents (Elt F)),
    binary main_v63 main_v35 main_v64 (mulf : (⟨S2048, .f32⟩ : BufTy).Contents (Elt F) → (⟨S2048, .f32⟩ : BufTy).Contents (Elt F) → (⟨S2048, .f32⟩ : BufTy).Contents (Elt F)),
    binary main_v62 main_v64 main_v65 (addf : (⟨S2048, .f32⟩ : BufTy).Contents (Elt F) → (⟨S2048, .f32⟩ : BufTy).Contents (Elt F) → (⟨S2048, .f32⟩ : BufTy).Contents (Elt F)),
    nullary main_cst_24 (constant S_ .f32 0x3F800000#32),
    unary main_cst_24 main_v66 (broadcastInDim S2048 ![] bcast_S_S2048 : (⟨S_, .f32⟩ : BufTy).Contents (Elt F) → (⟨S2048, .f32⟩ : BufTy).Contents (Elt F)),
    binary main_v66 main_v60 main_v67 (mulf : (⟨S2048, .f32⟩ : BufTy).Contents (Elt F) → (⟨S2048, .f32⟩ : BufTy).Contents (Elt F) → (⟨S2048, .f32⟩ : BufTy).Contents (Elt F)),
    binary main_v65 main_v67 main_v68 (addf : (⟨S2048, .f32⟩ : BufTy).Contents (Elt F) → (⟨S2048, .f32⟩ : BufTy).Contents (Elt F) → (⟨S2048, .f32⟩ : BufTy).Contents (Elt F)),
    nullary main_cst_25 (constant S_ .f32 0x00000000#32),
    binary main_v68 main_cst_25 main_v69 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_26 (constant S_ .f32 0x45000000#32),
    binary main_v69 main_cst_26 main_v70 (Host.divf : (⟨S_, .f32⟩ : BufTy).Contents (Elt F) → (⟨S_, .f32⟩ : BufTy).Contents (Elt F) → (⟨S_, .f32⟩ : BufTy).Contents (Elt F)) ]

set_option maxRecDepth 8192 in
/-- The line is the six stretches one after the other (at a called function's operations the typed references' transports
    are the identity, the references being literals). -/
theorem ops_split : (ops : List (HloOp τ sig (Elt F))) = c1 ++ (c2 ++ (c3 ++ (c4 ++ (c5 ++ c6)))) := rfl

/-! ## What each stretch leaves, over an arbitrary valuation -/

/-- After the first stretch the first reshaped argument. -/
theorem c1_v0 (X : Valuation τ sig (Elt F)) :
    after c1 X (Proc.devRef .tc main_v0)
      = shapeCast _ (X (Proc.devRef .tc main_arg0)) shapeCasts_S2048x8192x1_S2048x8192 := by
  unfold c1
  after_results_simp
  rfl

/-- After the first stretch the second reshaped argument. -/
theorem c1_v1 (X : Valuation τ sig (Elt F)) :
    after c1 X (Proc.devRef .tc main_v1)
      = shapeCast _ (X (Proc.devRef .tc main_arg1)) shapeCasts_S2048x8192x1_S2048x8192 := by
  unfold c1
  after_results_simp
  rfl

/-- After the first stretch the valid mask of the three reshaped arguments. -/
theorem c1_v11 (X : Valuation τ sig (Elt F)) :
    after c1 X (Proc.devRef .tc main_v11)
      = Stage.valid (F := F) (shapeCast _ (X (Proc.devRef .tc main_arg0)) shapeCasts_S2048x8192x1_S2048x8192)
          (shapeCast _ (X (Proc.devRef .tc main_arg1)) shapeCasts_S2048x8192x1_S2048x8192)
          (shapeCast _ (X (Proc.devRef .tc main_arg2)) shapeCasts_S2048x8192x1_S2048x8192) := by
  unfold c1
  after_results_simp
  rfl

/-! What stretch 1 does not write it leaves as it was (each operation's result at another reference is what was there). -/

theorem c1_fr_arg0 (X : Valuation τ sig (Elt F)) :
    after c1 X (Proc.devRef .tc main_arg0) = X (Proc.devRef .tc main_arg0) := by
  unfold c1
  after_results_simp

theorem c1_fr_arg1 (X : Valuation τ sig (Elt F)) :
    after c1 X (Proc.devRef .tc main_arg1) = X (Proc.devRef .tc main_arg1) := by
  unfold c1
  after_results_simp

theorem c1_fr_arg2 (X : Valuation τ sig (Elt F)) :
    after c1 X (Proc.devRef .tc main_arg2) = X (Proc.devRef .tc main_arg2) := by
  unfold c1
  after_results_simp

/-- After the second stretch the guarded root mean of the squared errors over the mask it found in main_v11. -/
theorem c2_v28 (X : Valuation τ sig (Elt F)) :
    after c2 X (Proc.devRef .tc main_v28)
      = Stage.rmseS (F := F) (Stage.msumS (X (Proc.devRef .tc main_v11)) (Stage.sqd (X (Proc.devRef .tc main_v0)) (X (Proc.devRef .tc main_v1))))
          (Stage.cntI (X (Proc.devRef .tc main_v11))) := by
  unfold c2
  after_results_simp
  unfold Stage.rmseS Stage.msumS Stage.where1 Stage.where2 Stage.gt0 Stage.cntI Stage.sqd
  rfl

/-- After the second stretch whether each row's count is positive. -/
theorem c2_v15 (X : Valuation τ sig (Elt F)) :
    after c2 X (Proc.devRef .tc main_v15)
      = Stage.gt0 (F := F) (Stage.cntI (X (Proc.devRef .tc main_v11))) := by
  unfold c2
  after_results_simp
  rfl

/-! What stretch 2 does not write it leaves as it was (each operation's result at another reference is what was there). -/

theorem c2_fr_v0 (X : Valuation τ sig (Elt F)) :
    after c2 X (Proc.devRef .tc main_v0) = X (Proc.devRef .tc main_v0) := by
  unfold c2
  after_results_simp

theorem c2_fr_v1 (X : Valuation τ sig (Elt F)) :
    after c2 X (Proc.devRef .tc main_v1) = X (Proc.devRef .tc main_v1) := by
  unfold c2
  after_results_simp

theorem c2_fr_v11 (X : Valuation τ sig (Elt F)) :
    after c2 X (Proc.devRef .tc main_v11) = X (Proc.devRef .tc main_v11) := by
  unfold c2
  after_results_simp

theorem c2_fr_arg0 (X : Valuation τ sig (Elt F)) :
    after c2 X (Proc.devRef .tc main_arg0) = X (Proc.devRef .tc main_arg0) := by
  unfold c2
  after_results_simp

theorem c2_fr_arg1 (X : Valuation τ sig (Elt F)) :
    after c2 X (Proc.devRef .tc main_arg1) = X (Proc.devRef .tc main_arg1) := by
  unfold c2
  after_results_simp

theorem c2_fr_arg2 (X : Valuation τ sig (Elt F)) :
    after c2 X (Proc.devRef .tc main_arg2) = X (Proc.devRef .tc main_arg2) := by
  unfold c2
  after_results_simp

/-- After the third stretch the masked row maximum of the target. -/
theorem c3_v30 (X : Valuation τ sig (Elt F)) :
    after c3 X (Proc.devRef .tc main_v30)
      = Stage.peakS (F := F) (X (Proc.devRef .tc main_v11)) (X (Proc.devRef .tc main_v1)) := by
  unfold c3
  after_results_simp
  rfl

/-- After the third stretch the peak error. -/
theorem c3_v35 (X : Valuation τ sig (Elt F)) :
    after c3 X (Proc.devRef .tc main_v35)
      = Stage.peakErrS (F := F) (X (Proc.devRef .tc main_v15)) (Stage.peakS (X (Proc.devRef .tc main_v11)) (X (Proc.devRef .tc main_v0)))
          (Stage.peakS (X (Proc.devRef .tc main_v11)) (X (Proc.devRef .tc main_v1))) := by
  unfold c3
  after_results_simp
  rfl

/-! What stretch 3 does not write it leaves as it was (each operation's result at another reference is what was there). -/

theorem c3_fr_v0 (X : Valuation τ sig (Elt F)) :
    after c3 X (Proc.devRef .tc main_v0) = X (Proc.devRef .tc main_v0) := by
  unfold c3
  after_results_simp

theorem c3_fr_v1 (X : Valuation τ sig (Elt F)) :
    after c3 X (Proc.devRef .tc main_v1) = X (Proc.devRef .tc main_v1) := by
  unfold c3
  after_results_simp

theorem c3_fr_v11 (X : Valuation τ sig (Elt F)) :
    after c3 X (Proc.devRef .tc main_v11) = X (Proc.devRef .tc main_v11) := by
  unfold c3
  after_results_simp

theorem c3_fr_v28 (X : Valuation τ sig (Elt F)) :
    after c3 X (Proc.devRef .tc main_v28) = X (Proc.devRef .tc main_v28) := by
  unfold c3
  after_results_simp

theorem c3_fr_arg0 (X : Valuation τ sig (Elt F)) :
    after c3 X (Proc.devRef .tc main_arg0) = X (Proc.devRef .tc main_arg0) := by
  unfold c3
  after_results_simp

theorem c3_fr_arg1 (X : Valuation τ sig (Elt F)) :
    after c3 X (Proc.devRef .tc main_arg1) = X (Proc.devRef .tc main_arg1) := by
  unfold c3
  after_results_simp

theorem c3_fr_arg2 (X : Valuation τ sig (Elt F)) :
    after c3 X (Proc.devRef .tc main_arg2) = X (Proc.devRef .tc main_arg2) := by
  unfold c3
  after_results_simp

/-- After the fourth stretch the high-value mask. -/
theorem c4_v45 (X : Valuation τ sig (Elt F)) :
    after c4 X (Proc.devRef .tc main_v45)
      = Stage.highS (F := F) (X (Proc.devRef .tc main_v11)) (X (Proc.devRef .tc main_v1)) (X (Proc.devRef .tc main_v30)) := by
  unfold c4
  after_results_simp
  rfl

/-- After the fourth stretch each row's count of high-value entries. -/
theorem c4_v47 (X : Valuation τ sig (Elt F)) :
    after c4 X (Proc.devRef .tc main_v47)
      = Stage.cntI (F := F) (Stage.highS (X (Proc.devRef .tc main_v11)) (X (Proc.devRef .tc main_v1)) (X (Proc.devRef .tc main_v30))) := by
  unfold c4
  after_results_simp
  rfl

/-! What stretch 4 does not write it leaves as it was (each operation's result at another reference is what was there). -/

theorem c4_fr_v0 (X : Valuation τ sig (Elt F)) :
    after c4 X (Proc.devRef .tc main_v0) = X (Proc.devRef .tc main_v0) := by
  unfold c4
  after_results_simp

theorem c4_fr_v1 (X : Valuation τ sig (Elt F)) :
    after c4 X (Proc.devRef .tc main_v1) = X (Proc.devRef .tc main_v1) := by
  unfold c4
  after_results_simp

theorem c4_fr_v28 (X : Valuation τ sig (Elt F)) :
    after c4 X (Proc.devRef .tc main_v28) = X (Proc.devRef .tc main_v28) := by
  unfold c4
  after_results_simp

theorem c4_fr_v35 (X : Valuation τ sig (Elt F)) :
    after c4 X (Proc.devRef .tc main_v35) = X (Proc.devRef .tc main_v35) := by
  unfold c4
  after_results_simp

theorem c4_fr_arg0 (X : Valuation τ sig (Elt F)) :
    after c4 X (Proc.devRef .tc main_arg0) = X (Proc.devRef .tc main_arg0) := by
  unfold c4
  after_results_simp

theorem c4_fr_arg1 (X : Valuation τ sig (Elt F)) :
    after c4 X (Proc.devRef .tc main_arg1) = X (Proc.devRef .tc main_arg1) := by
  unfold c4
  after_results_simp

theorem c4_fr_arg2 (X : Valuation τ sig (Elt F)) :
    after c4 X (Proc.devRef .tc main_arg2) = X (Proc.devRef .tc main_arg2) := by
  unfold c4
  after_results_simp

/-- After the fifth stretch the guarded root mean over the mask in main_v45 with the count in main_v47. -/
theorem c5_v60 (X : Valuation τ sig (Elt F)) :
    after c5 X (Proc.devRef .tc main_v60)
      = Stage.rmseS (F := F) (Stage.msumS (X (Proc.devRef .tc main_v45)) (Stage.sqd (X (Proc.devRef .tc main_v0)) (X (Proc.devRef .tc main_v1))))
          (X (Proc.devRef .tc main_v47)) := by
  unfold c5
  after_results_simp
  unfold Stage.rmseS Stage.msumS Stage.where1 Stage.where2 Stage.gt0 Stage.sqd
  rfl

/-! What stretch 5 does not write it leaves as it was (each operation's result at another reference is what was there). -/

theorem c5_fr_v28 (X : Valuation τ sig (Elt F)) :
    after c5 X (Proc.devRef .tc main_v28) = X (Proc.devRef .tc main_v28) := by
  unfold c5
  after_results_simp

theorem c5_fr_v35 (X : Valuation τ sig (Elt F)) :
    after c5 X (Proc.devRef .tc main_v35) = X (Proc.devRef .tc main_v35) := by
  unfold c5
  after_results_simp

theorem c5_fr_arg0 (X : Valuation τ sig (Elt F)) :
    after c5 X (Proc.devRef .tc main_arg0) = X (Proc.devRef .tc main_arg0) := by
  unfold c5
  after_results_simp

theorem c5_fr_arg1 (X : Valuation τ sig (Elt F)) :
    after c5 X (Proc.devRef .tc main_arg1) = X (Proc.devRef .tc main_arg1) := by
  unfold c5
  after_results_simp

theorem c5_fr_arg2 (X : Valuation τ sig (Elt F)) :
    after c5 X (Proc.devRef .tc main_arg2) = X (Proc.devRef .tc main_arg2) := by
  unfold c5
  after_results_simp

/-- After the sixth stretch the mean over the rows of the weighted sum. -/
theorem c6_v70 (X : Valuation τ sig (Elt F)) :
    after c6 X (Proc.devRef .tc main_v70)
      = Stage.meanS (F := F) (Stage.combineS (X (Proc.devRef .tc main_v28)) (X (Proc.devRef .tc main_v35)) (X (Proc.devRef .tc main_v60))) := by
  unfold c6
  after_results_simp
  rfl

/-! What stretch 6 does not write it leaves as it was (each operation's result at another reference is what was there). -/

theorem c6_fr_arg0 (X : Valuation τ sig (Elt F)) :
    after c6 X (Proc.devRef .tc main_arg0) = X (Proc.devRef .tc main_arg0) := by
  unfold c6
  after_results_simp

theorem c6_fr_arg1 (X : Valuation τ sig (Elt F)) :
    after c6 X (Proc.devRef .tc main_arg1) = X (Proc.devRef .tc main_arg1) := by
  unfold c6
  after_results_simp

theorem c6_fr_arg2 (X : Valuation τ sig (Elt F)) :
    after c6 X (Proc.devRef .tc main_arg2) = X (Proc.devRef .tc main_arg2) := by
  unfold c6
  after_results_simp

/-! ## The stretches joined -/

/-- The whole line from any valuation: the result buffer holds resultS of the three argument buffers. Read from the last
    stretch inward: each stretch's value over the valuation the earlier stretches left, the buffers in between unchanged. -/
theorem after_ops_v70 (V : Valuation τ sig (Elt F)) :
    after ops V (Proc.devRef .tc main_v70)
      = Stage.resultS (F := F) (V (Proc.devRef .tc main_arg0)) (V (Proc.devRef .tc main_arg1)) (V (Proc.devRef .tc main_arg2)) := by
  rw [ops_split]
  simp only [StableHlo.after_append]
  rw [c6_v70, c5_v60, c5_fr_v28, c5_fr_v35]
  rw [c4_v45, c4_v47, c4_fr_v0, c4_fr_v1, c4_fr_v28, c4_fr_v35]
  rw [c3_v30, c3_v35, c3_fr_v0, c3_fr_v1, c3_fr_v11, c3_fr_v28]
  rw [c2_v28, c2_v15, c2_fr_v0, c2_fr_v1, c2_fr_v11]
  rw [c1_v0, c1_v1, c1_v11]
  rfl

/-- The whole line leaves main_arg0 as it was. -/
theorem after_ops_arg0 (V : Valuation τ sig (Elt F)) :
    after ops V (Proc.devRef .tc main_arg0) = V (Proc.devRef .tc main_arg0) := by
  rw [ops_split]
  simp only [StableHlo.after_append]
  rw [c6_fr_arg0, c5_fr_arg0, c4_fr_arg0, c3_fr_arg0, c2_fr_arg0, c1_fr_arg0]

/-- The whole line leaves main_arg1 as it was. -/
theorem after_ops_arg1 (V : Valuation τ sig (Elt F)) :
    after ops V (Proc.devRef .tc main_arg1) = V (Proc.devRef .tc main_arg1) := by
  rw [ops_split]
  simp only [StableHlo.after_append]
  rw [c6_fr_arg1, c5_fr_arg1, c4_fr_arg1, c3_fr_arg1, c2_fr_arg1, c1_fr_arg1]

/-- The whole line leaves main_arg2 as it was. -/
theorem after_ops_arg2 (V : Valuation τ sig (Elt F)) :
    after ops V (Proc.devRef .tc main_arg2) = V (Proc.devRef .tc main_arg2) := by
  rw [ops_split]
  simp only [StableHlo.after_append]
  rw [c6_fr_arg2, c5_fr_arg2, c4_fr_arg2, c3_fr_arg2, c2_fr_arg2, c1_fr_arg2]

/-! ## The run -/

/-- On every device, for any float values, from any memory with zero counters: every weakly fair execution of @main
    terminates with the result buffer at resultS of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
          = Stage.resultS (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v70).trans (after_ops_v70 _), (h c main_arg0).trans (after_ops_arg0 _),
      (h c main_arg1).trans (after_ops_arg1 _), (h c main_arg2).trans (after_ops_arg2 _)⟩)
    (run_seq scopedRefs_eq scopedSems_eq defs main (fun _ => ops) main_eq (fun _ => ops_sub) m ρ)

end Cert.ReferenceIdeal.RefRun

end
-- ==== Proof.lean ====
/-
  The certificate: the flood-masked peak/area loss kernel against its jnp reference, over the extended reals.

  Both programs compute, for each of the 2048 rows of the three [2048, 8192, 1] arguments, one loss — half the root
  mean squared error over the valid entries, plus twice the absolute difference of the valid peaks of predictions and
  targets, plus the root mean squared error over the valid entries whose target is at least 0.8 of the target peak
  (all valid entries where that peak is not positive) — and return the mean of the 2048 losses.
  The kernel counts valid entries as a float sum and replaces the threshold by -∞ where the peak is not positive; the
  reference counts them as a 32-bit integer sum and selects the constant true there. On the extended reals these are
  one function of the arguments (Proof/RowLoss.lean); it needs no finiteness of the inputs.

  Kernel side: the generated frame names what each grid point writes back; Proof/KernelRow.lean reads the body's
  payload at a row, Proof/KernelRun.lean assembles the sixteen blocks into the output array and reads the lines after
  the region. Reference side: Proof/RefStages.lean names the program's stages and reads them at a row,
  Proof/RefRun.lean reads the program's run back, stretch by stretch.
-/
import proofs.«413434_j16612933501051_4_alg».proof.Defs
import proofs.«413434_j16612933501051_4_alg».proof.Proof.Gen.Kernel
import proofs.«413434_j16612933501051_4_alg».proof.Proof.Gen.Kernel.Skeleton
import proofs.«413434_j16612933501051_4_alg».proof.Proof.Gen.Kernel.Launch
import proofs.«413434_j16612933501051_4_alg».proof.Proof.Gen.Kernel.Points
import proofs.«413434_j16612933501051_4_alg».proof.Proof.Gen.Kernel.Frame
import proofs.«413434_j16612933501051_4_alg».proof.Proof.Gen.KernelIdeal
import proofs.«413434_j16612933501051_4_alg».proof.Proof.Gen.KernelIdeal.Skeleton
import proofs.«413434_j16612933501051_4_alg».proof.Proof.Gen.KernelIdeal.Launch
import proofs.«413434_j16612933501051_4_alg».proof.Proof.Gen.KernelIdeal.Points
import proofs.«413434_j16612933501051_4_alg».proof.Proof.Gen.KernelIdeal.Frame
import proofs.«413434_j16612933501051_4_alg».proof.Proof.Gen.ReferenceIdeal
import proofs.«413434_j16612933501051_4_alg».proof.Proof.Gen.Pre_finite_inputs
import proofs.«413434_j16612933501051_4_alg».proof.Proof.RowLoss
import proofs.«413434_j16612933501051_4_alg».proof.Proof.Total
import proofs.«413434_j16612933501051_4_alg».proof.Proof.KernelRow
import proofs.«413434_j16612933501051_4_alg».proof.Proof.KernelRun
import proofs.«413434_j16612933501051_4_alg».proof.Proof.RefStages
import proofs.«413434_j16612933501051_4_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result, as the stages compute it, is the shared function of the arguments: the mean is the same
    mean, and row r of the stages' losses is the reference's spelling of row r's loss, which is the kernel's. -/
theorem resultS_eq_G (x0 x1 : Cert.ReferenceIdeal.Stage.C3f Ideal) (x2 : Cert.ReferenceIdeal.Stage.C3i Ideal) :
    Cert.ReferenceIdeal.Stage.resultS (F := Ideal) x0 x1 x2 = PeakFlood.G x0 x1 x2 :=
  (Cert.ReferenceIdeal.Stage.meanS_eq _).trans (congrArg PeakFlood.meanAll (funext fun i => by
    obtain ⟨r, rfl⟩ : ∃ r : Fin 2048, i = ix1 r := ⟨i 0, eq_ix1 i⟩
    exact (Cert.ReferenceIdeal.Stage.rowsS_apply x0 x1 x2 r).trans (PeakFlood.rowLossK_eq_rowLossR _ _ _).symm))

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end with the result buffer at G of the arguments. -/
theorem algebraic : Cert.algebraic_KernelIdeal_ReferenceIdeal := by
  intro m ρ m' ρ' _ hagree
  refine ⟨fun c => PeakFlood.G (Cert.KernelIdeal.RunValue.a0 m c) (Cert.KernelIdeal.RunValue.a1 m c) (Cert.KernelIdeal.RunValue.a2 m c),
    Cert.KernelIdeal.RunValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact resultS_eq_G _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
